-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_arg5 : FVec F S16384 .f32) (main_arg6 : FVec F S16384 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  main_v33

def fn {F : FTy → Type} [FloatOps F] (main_arg0 : FVec F S8192x4096 .f32) (main_arg1 : FVec F S16384x4096 .f32) (main_arg2 : FVec F S16384x4096 .f32) (main_arg3 : FVec F S16384x4096 .f32) (main_arg4 : FVec F S16384 .f32) (main_arg5 : FVec F S16384 .f32) (main_arg6 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_arg5 main_arg6 main_v13 main_v16
-- ==== Kernel.lean ====
abbrev S8192x4096 : Shape := ⟨2, ![8192, 4096]⟩
abbrev S16384x4096 : Shape := ⟨2, ![16384, 4096]⟩
abbrev S16384 : Shape := ⟨1, ![16384]⟩
abbrev S512x1024 : Shape := ⟨2, ![512, 1024]⟩
abbrev S1x16384 : Shape := ⟨2, ![1, 16384]⟩
abbrev S8192x16384 : Shape := ⟨2, ![8192, 16384]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 14
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S16384, .f32⟩
  | .hbm, ⟨5, _⟩ => ⟨S16384, .f32⟩
  | .hbm, ⟨6, _⟩ => ⟨S16384, .f32⟩
  | .hbm, ⟨7, _⟩ => ⟨S16384x4096, .bf16⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S1x16384, .f32⟩
  | .hbm, ⟨13, _⟩ => ⟨S8192x16384, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x256, .f32⟩
  | .local _ .vmem, ⟨9, _⟩ => ⟨S1024x256, .f32⟩
  | .local _ .vmem, ⟨10, _⟩ => ⟨S2048x256, .bf16⟩
  | .local _ .vmem, ⟨11, _⟩ => ⟨S2048x256, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 8, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  shapeCasts_S16384_S1x16384 : S16384.ShapeCasts S1x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x4096.size a
  hwx0_1 : ∀ i : grid0.Coords, EltTy.bits .f32 = 32 ∨ (Rect.block (s := S16384x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x4096.size a
  hwx0_2 : ∀ i : grid0.Coords, EltTy.bits .f32 = 32 ∨ (Rect.block (s := S16384x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x4096.size a
  hwx0_3 : ∀ i : grid0.Coords, EltTy.bits .bf16 = 32 ∨ (Rect.block (s := S16384x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x4096.size a
  hwx1_1 : ∀ i : grid1.Coords, EltTy.bits .bf16 = 32 ∨ (Rect.block (s := S16384x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x16384.size a
  hwx1_3 : ∀ i : grid1.Coords, EltTy.bits .f32 = 32 ∨ (Rect.block (s := S8192x16384) S1024x2048.size (cc1_transform_3 i) (hinb1_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S8192x16384 : Shape := ⟨2, ![8192, 16384]⟩
abbrev S1x16384 : Shape := ⟨2, ![1, 16384]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S16384, .f32⟩
  | .hbm, ⟨5, _⟩ => ⟨S16384, .f32⟩
  | .hbm, ⟨6, _⟩ => ⟨S16384, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S8192x16384, .f32⟩
  | .hbm, ⟨16, _⟩ => ⟨S1x16384, .f32⟩
  | .hbm, ⟨17, _⟩ => ⟨S8192x16384, .f32⟩
  | .hbm, ⟨18, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.Bits.WeightRegion.lean ====
/-
  Region 0 of the kernel program: the weight sample, block by block.

  The first pallas_call runs over a 32 × 4 grid of blocks of 512 × 1024 entries.  At a grid point it is handed the
  blocks of the three weight arrays (mean, rho, noise) and leaves in the output block, entry by entry,
  `mean + log1p (exp rho) * noise`, narrowed to the output's element type.  This module states that as the
  region's proof data — each input block stays as fetched, the output block is the one store's value over the
  three input blocks — and proves the per-point obligation by running the body once over symbolic blocks.
  Everything is generic in the float instance and in `V`, the buffer contents when the region is entered.
-/
import proofs.«144853_j39711267619209_1_alg».proof.Proof.Gen.Kernel.Launch
import proofs.«144853_j39711267619209_1_alg».proof.Proof.Gen.Kernel.Skeleton
import proofs.«144853_j39711267619209_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region reads -/

/-- Window `w`'s block at grid point `t`: the rectangle of its array (as the region finds it) that the index map
    selects there. -/
def wblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs: the block is fetched at every point
    the index moves, and the body leaves it in place. -/
theorem wfound_0 {c : Dev nD} (dat : Dat τ (Elt F) Unit ℕ (UR sig nD τ) ℕ cfg0 c) (hA : dat.A 0 = V c (Pipeline.arrRef spec0 0))
    (hafter : ∀ t, dat.after 0 t = wblk V c 0 t) (t : Fin cfg0.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)
theorem wfound_1 {c : Dev nD} (dat : Dat τ (Elt F) Unit ℕ (UR sig nD τ) ℕ cfg0 c) (hA : dat.A 1 = V c (Pipeline.arrRef spec0 1))
    (hafter : ∀ t, dat.after 1 t = wblk V c 1 t) (t : Fin cfg0.N) (d) : dat.before 1 t d = wblk V c 1 t :=
  (dat.before_in_eq_fetched 1 rfl (fun _ => rfl) (fun _ _ _ => rfl) (fun t => by rw [hafter]; unfold Dat.blockOf wblk; rw [hA]; try rfl) t d).trans
    (by unfold Dat.fetched Dat.blockOf wblk; rw [hA]; try rfl)
theorem wfound_2 {c : Dev nD} (dat : Dat τ (Elt F) Unit ℕ (UR sig nD τ) ℕ cfg0 c) (hA : dat.A 2 = V c (Pipeline.arrRef spec0 2))
    (hafter : ∀ t, dat.after 2 t = wblk V c 2 t) (t : Fin cfg0.N) (d) : dat.before 2 t d = wblk V c 2 t :=
  (dat.before_in_eq_fetched 2 rfl (fun _ => rfl) (fun _ _ _ => rfl) (fun t => by rw [hafter]; unfold Dat.blockOf wblk; rw [hA]; try rfl) t d).trans
    (by unfold Dat.fetched Dat.blockOf wblk; rw [hA]; try rfl)

/-! ## What one point writes -/

/-- The whole 512 × 1024 block: the one rectangle every load and the store of this body go through. -/
abbrev wrect : Rect S512x1024 := Rect.unit (s := S512x1024) ![0, 0] S512x1024.size inb_S512x1024_S512x1024_0_0

/-- The output block after the body, from the three input blocks: the single store's value, laid over the whole block. -/
def wout (mu rho eps : Vec F S512x1024 .f32) : Vec F S512x1024 .bf16 :=
  View.canon [⟨wrect, k0_pay1 (View.ld mu wrect) (View.ld rho wrect) (View.ld eps wrect)⟩]

/-- That one store covers the block. -/
theorem wcover (p0 : Vec F S512x1024 .bf16) (y : S512x1024.Idx) :
    ∃ pc ∈ ([⟨wrect, p0⟩] : List (View.Piece (Elt F) S512x1024 .bf16)), y ∈ pc.1.set :=
  View.cover_of_tiled [⟨wrect, p0⟩] S512x1024.size (by rfl) y

/-! ## The body run once, over symbolic blocks -/

set_option maxHeartbeats 1000000 in
/-- On whole staging buffers — the three inputs at `mu`, `rho`, `eps`, the output at anything — the body runs to
    its end, leaves the inputs as they were and the output at `wout mu rho eps`. -/
theorem wbody_run (c : Dev nD) (E : Set ℕ) (i : grid0.Coords)
    (a2 : Memref sig .tc .vmem S512x1024 .f32) (h2 : a2.IsWhole) (a3 : Memref sig .tc .vmem S512x1024 .f32) (h3 : a3.IsWhole)
    (a4 : Memref sig .tc .vmem S512x1024 .f32) (h4 : a4.IsWhole) (a5 : Memref sig .tc .vmem S512x1024 .bf16) (h5 : a5.IsWhole)
    (mu rho eps : Vec F S512x1024 .f32) (K : PUnit → sProp 𝕄) :
    iprop(owns (c : Thread nD τ) a2 fullShare mu ∗ owns (c : Thread nD τ) a3 fullShare rho ∗ owns (c : Thread nD τ) a4 fullShare eps
        ∗ (∃ d, owns (c : Thread nD τ) a5 fullShare d)
        ∗ (iprop(owns (c : Thread nD τ) a2 fullShare mu ∗ owns (c : Thread nD τ) a3 fullShare rho ∗ owns (c : Thread nD τ) a4 fullShare eps
            ∗ owns (c : Thread nD τ) a5 fullShare (wout mu rho eps)) -∗ K ⟨⟩))
      ⊢ wp frame (wpE (defs₀ (F := F)) Variants.none c none) E (cc0__weight_prep_kernel i a2 h2 a3 h3 a4 h4 a5 h5) K := by
  simp only [cc0__weight_prep_kernel_eq_skeleton]; unfold cc0__weight_prep_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wcover _)

/-! ## The region's proof data -/

/-- Region 0 on core `c`: the arrays as the region finds them; after each point every input buffer still at its
    block and the output buffer at `wout` of the three input blocks; the invariant is the scoped buffers no
    window stages and the generator register, untouched; nothing is owed. -/
def wdat (c : Dev nD) : Dat τ (Elt F) Unit ℕ (UR sig nD τ) ℕ cfg0 c where
  A w := V c (Pipeline.arrRef spec0 w)
  after w t := match w with
    | ⟨0, _⟩ => wblk V c 0 t
    | ⟨1, _⟩ => wblk V c 1 t
    | ⟨2, _⟩ => wblk V c 2 t
    | ⟨3, _⟩ => wout (wblk V c 0 t) (wblk V c 1 t) (wblk V c 2 t)
  Φ _ := Pipeline.ΦA spec0 c
  q _ := fullShare
  owed _ := 0

theorem wdat_A (c : Dev nD) (w : Fin cfg0.W) : (wdat V c).A w = V c (Pipeline.arrRef spec0 w) := by
  dsimp only [wdat]

theorem wafter_0 (c : Dev nD) (t : Fin cfg0.N) : (wdat V c).after 0 t = wblk V c 0 t := by dsimp only [wdat]
theorem wafter_1 (c : Dev nD) (t : Fin cfg0.N) : (wdat V c).after 1 t = wblk V c 1 t := by dsimp only [wdat]
theorem wafter_2 (c : Dev nD) (t : Fin cfg0.N) : (wdat V c).after 2 t = wblk V c 2 t := by dsimp only [wdat]
theorem wafter_3 (c : Dev nD) (t : Fin cfg0.N) :
    (wdat V c).after 3 t = wout (wblk V c 0 t) (wblk V c 1 t) (wblk V c 2 t) := by dsimp only [wdat]

theorem wbefore_0 (c : Dev nD) (t : Fin cfg0.N) (d) : (wdat V c).before 0 t d = wblk V c 0 t :=
  wfound_0 V (wdat V c) (wdat_A V c 0) (wafter_0 V c) t d
theorem wbefore_1 (c : Dev nD) (t : Fin cfg0.N) (d) : (wdat V c).before 1 t d = wblk V c 1 t :=
  wfound_1 V (wdat V c) (wdat_A V c 1) (wafter_1 V c) t d
theorem wbefore_2 (c : Dev nD) (t : Fin cfg0.N) (d) : (wdat V c).before 2 t d = wblk V c 2 t :=
  wfound_2 V (wdat V c) (wdat_A V c 2) (wafter_2 V c) t d

/-! ## The obligation at every point -/

/-- What the body is called with at point `t`, the windows one by one, -/
def wpre (c : Dev nD) (t : Fin cfg0.N) : sProp 𝕄 :=
  iprop((wdat V c).Φ t.castSucc ∗ (wdat V c).owesAt () t.castSucc
    ∗ (∃ d, owns (c : Thread nD τ) (st0_0 t) fullShare ((wdat V c).before 0 t d))
    ∗ (∃ d, owns (c : Thread nD τ) (st0_1 t) fullShare ((wdat V c).before 1 t d))
    ∗ (∃ d, owns (c : Thread nD τ) (st0_2 t) fullShare ((wdat V c).before 2 t d))
    ∗ (∃ d, owns (c : Thread nD τ) (st0_3 t) fullShare ((wdat V c).before 3 t d)))

/-- and what it returns. -/
def wpost (c : Dev nD) (t : Fin cfg0.N) : sProp 𝕄 :=
  iprop((wdat V c).Φ t.succ ∗ (wdat V c).owesAt () t.succ
    ∗ owns (c : Thread nD τ) (st0_0 t) fullShare ((wdat V c).after 0 t)
    ∗ owns (c : Thread nD τ) (st0_1 t) fullShare ((wdat V c).after 1 t)
    ∗ owns (c : Thread nD τ) (st0_2 t) fullShare ((wdat V c).after 2 t)
    ∗ owns (c : Thread nD τ) (st0_3 t) fullShare ((wdat V c).after 3 t))

theorem wsound (c : Dev nD) (t : Fin cfg0.N) :
    wpre V c t ⊢ wp frame (wpE (defs₀ (F := F)) Variants.none c none) Set.univ (bodyAt0 t) (fun _ => wpost V c t) := by
  unfold wpre wpost bodyAt0
  simp only [wbefore_0, wbefore_1, wbefore_2]
  rw [show (wdat V c).Φ t.succ = (wdat V c).Φ t.castSucc from rfl,
    show (wdat V c).owesAt () t.succ = (wdat V c).owesAt () t.castSucc from rfl,
    wafter_0, wafter_1, wafter_2, wafter_3]
  iintro ⟨HΦ, Ho, ⟨%d0, H0⟩, ⟨%d1, H1⟩, ⟨%d2, H2⟩, ⟨%d3, H3⟩⟩
  iapply (wbody_run c Set.univ _ _ _ _ _ _ _ _ _ (wblk V c 0 t) (wblk V c 1 t) (wblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem wobligation (c : Dev nD) : BodyObligation (wdat (F := F) V c) (defs₀ (F := F)) Variants.none () Set.univ := fun t => by
  rw [bigSep_W0, bigSep_W0]
  exact wsound V c t

end Cert.Kernel.Frame

end
-- ==== Proof.Bits.MatmulCases.lean ====
/-
  Region 1 of the kernel program, first part: when the body resets, when it emits, and the body run case by case.

  The second pallas_call runs over an 8 × 8 × 16 grid; the last axis walks the 16 blocks of 256 along the
  contracted dimension.  At a point the body (i) zeroes its 1024 × 2048 accumulator when the last coordinate is 0,
  (ii) adds to the accumulator the product of the point's block of `x` with its block of the weight sample,
  (iii) when the last coordinate is 15, stores accumulator + bias row into the output block.  Only three of the
  four branch combinations occur: first (reset, no emit), middle (neither) and last (emit, no reset).  The
  output window is idle — neither stored nor written back — away from the last coordinate.
  Here: the two conditions in closed form over the 1024 points, the idle facts, and for each case the body run
  once over symbolic blocks, the pieces it leaves in the accumulator (and, in the last case, in the output) being
  whatever the run hands back.
-/
import proofs.«144853_j39711267619209_1_alg».proof.Proof.Gen.Kernel.Launch
import proofs.«144853_j39711267619209_1_alg».proof.Proof.Gen.Kernel.Skeleton
import proofs.«144853_j39711267619209_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body's first branch is taken: the last grid coordinate is 0 (the accumulator is reset). -/
abbrev isFirst (i : grid1.Coords) : Prop := (Scalar.cmpi .ne (Scalar.extui (Scalar.cmpi .eq (BitVec.ofNat 32 (i 2).val) 0#32)) 0#32) = 1#1
/-- Over the grid in row-major order that is every sixteenth point, starting at 0. -/
theorem isFirst_iff : ∀ t : Fin cfg1.N, isFirst (grid1.coords t) ↔ t.val % 16 = 0 :=
  (by decide +kernel : ∀ t : Fin grid1.N, isFirst (grid1.coords t) ↔ t.val % 16 = 0)

/-- The body's second branch is taken: the last grid coordinate is 15 (the output block is emitted). -/
abbrev isLast (i : grid1.Coords) : Prop := k1_cond2 i = 1#1
/-- Every sixteenth point, starting at 15. -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_x : ∀ t : Fin cfg1.N, cfg1.idle 0 (grid1.coords t) = false := by decide +kernel
theorem live_w : ∀ t : Fin cfg1.N, cfg1.idle 1 (grid1.coords t) = false := by decide +kernel
theorem live_b : ∀ t : Fin cfg1.N, cfg1.idle 2 (grid1.coords t) = false := by decide +kernel
/-- Away from the last coordinate the output window is idle and is not written back; -/
theorem idle_out : ∀ t : Fin cfg1.N, ¬isLast (grid1.coords t) → cfg1.idle 3 (grid1.coords t) = true := by decide +kernel
theorem noflush_out : ∀ t : Fin cfg1.N, ¬isLast (grid1.coords t) → (cfg1.win 3).flush t = false := by decide +kernel
/-- at the last coordinate it is live. -/
theorem live_out : ∀ t : Fin cfg1.N, isLast (grid1.coords t) → cfg1.idle 3 (grid1.coords t) = false := by decide +kernel

/-! ## The buffers the body is called on -/

/-- One staging buffer of the output window, through which its contents are stated. -/
abbrev outView : View sig .tc .vmem S1024x2048 .f32 := (Memref.whole cc1_stg3_0 : Memref sig .tc .vmem S1024x2048 .f32).view
abbrev mx (t : Fin cfg1.N) : Memref sig .tc .vmem S1024x256 .f32 := win1_0.stage (cfg1.slots t 0)
abbrev hmx (t : Fin cfg1.N) : (mx t).IsWhole := hstage1_0 ((cfg1.slots t 0).cast nbuf1_0)
abbrev mw (t : Fin cfg1.N) : Memref sig .tc .vmem S2048x256 .bf16 := win1_1.stage (cfg1.slots t 1)
abbrev hmw (t : Fin cfg1.N) : (mw t).IsWhole := hstage1_1 ((cfg1.slots t 1).cast nbuf1_1)
abbrev mb (t : Fin cfg1.N) : Memref sig .tc .vmem S1x2048 .f32 := win1_2.stage (cfg1.slots t 2)
abbrev hmb (t : Fin cfg1.N) : (mb t).IsWhole := hstage1_2 ((cfg1.slots t 2).cast nbuf1_2)
abbrev mo (t : Fin cfg1.N) : Memref sig .tc .vmem S1024x2048 .f32 := win1_3.stage (cfg1.slots t 3)
abbrev hmo (t : Fin cfg1.N) : (mo t).IsWhole := hstage1_3 ((cfg1.slots t 3).cast nbuf1_3)
/-- The accumulator: a whole scoped buffer of the kernel's own, passed beside the windows. -/
abbrev accM : Memref sig .tc .vmem S1024x2048 .f32 := Memref.whole cc1_scratch0
abbrev accView : View sig .tc .vmem S1024x2048 .f32 := accM.view

/-- The scoped buffers of the core that are neither staging buffers of this region nor its accumulator — the first
    region's eight staging buffers — each whole at some contents: the body never touches them. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant with the accumulator's part `S` singled out: the other scoped buffers at anything, `S`,
    and the generator register at some state. -/
def phiWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

/-- What the launch hands the region is that invariant with the accumulator at anything. -/
theorem phiA_eq (c : Dev nD) :
    (Pipeline.ΦA spec1 c : sProp 𝕄) = phiWith c iprop(∃ d, owns (c : Thread nD τ) accM fullShare d) := by
  unfold Pipeline.ΦA phiWith; rw [scopedRest1_eq]; simp only [accM, owns_whole]; try rfl

/-- The accumulator's part taken out of the invariant, -/
theorem phiWith_out (c : Dev nD) (S : sProp 𝕄) : phiWith c S ⊢ iprop(S ∗ otherStaging c ∗ (∃ r, prngReg c r)) := by
  unfold phiWith otherStaging
  iintro ⟨⟨R0, R1, R2, R3, R4, R5, R6, R7, HS⟩, Hg⟩
  isplitl [HS]; · iexact HS
  isplitl [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  iexact Hg

/-- and put back. -/
theorem phiWith_in (c : Dev nD) (S : sProp 𝕄) : iprop(S ∗ otherStaging c ∗ (∃ r, prngReg c r)) ⊢ phiWith c S := by
  unfold phiWith otherStaging
  iintro ⟨HS, ⟨R0, R1, R2, R3, R4, R5, R6, R7⟩, Hg⟩
  isplitl [HS R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS
  iexact Hg

/-! ## The body, case by case -/

set_option maxHeartbeats 4000000 in
/-- FIRST coordinate (reset, no emit): inputs at their blocks, the output handed back untouched, the accumulator at
    anything in and with the run's pieces written out. -/
noncomputable def runFirst (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : isFirst i) (hc1 : ¬isLast i)
    (x : Vec F S1024x256 .f32) (w : Vec F S2048x256 .bf16) (b : Vec F S1x2048 .f32) :
    Σ' (LO : List (View.Piece (Elt F) S1024x2048 .f32)), { LA : List (View.Piece (Elt F) S1024x2048 .f32) //
      ∀ (o : Vec F S1024x2048 .f32) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ (∃ d, owns (c : Thread nD τ) a7 fullShare d)
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LA)) -∗ K ⟨⟩))
          ⊢ wp frame (wpE (defs₀ (F := F)) Variants.none c none) E (cc1__matmul_kernel i a3 h3 a4 h4 a5 h5 a6 h6 a7 h7) K } := by
  refine ⟨[], ?_, fun o E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h3.eq_unread hf0; obtain rfl := h4.eq_unread hf1; obtain rfl := h5.eq_unread hf2; obtain rfl := h6.eq_unread hf3
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HS

set_option maxHeartbeats 4000000 in
/-- MIDDLE coordinates (no reset, no emit): the accumulator comes in at what the point before left (`s`). -/
noncomputable def runMiddle (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : ¬isLast i)
    (x : Vec F S1024x256 .f32) (w : Vec F S2048x256 .bf16) (b : Vec F S1x2048 .f32) (s : Vec F S1024x2048 .f32) :
    Σ' (LO : List (View.Piece (Elt F) S1024x2048 .f32)), { LA : List (View.Piece (Elt F) S1024x2048 .f32) //
      ∀ (o : Vec F S1024x2048 .f32) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare s
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LA)) -∗ K ⟨⟩))
          ⊢ wp frame (wpE (defs₀ (F := F)) Variants.none c none) E (cc1__matmul_kernel i a3 h3 a4 h4 a5 h5 a6 h6 a7 h7) K } := by
  refine ⟨[], ?_, fun o E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h3.eq_unread hf0; obtain rfl := h4.eq_unread hf1; obtain rfl := h5.eq_unread hf2; obtain rfl := h6.eq_unread hf3
    obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HS

set_option maxHeartbeats 4000000 in
/-- LAST coordinate (no reset, emit): the accumulator comes in at `s`; the output goes in at anything and comes out
    with the run's pieces written. -/
noncomputable def runLast (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i)
    (x : Vec F S1024x256 .f32) (w : Vec F S2048x256 .bf16) (b : Vec F S1x2048 .f32) (s : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ d, owns (c : Thread nD τ) a6 fullShare d) ∗ owns (c : Thread nD τ) a7 fullShare s
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LA)) -∗ K ⟨⟩))
          ⊢ wp frame (wpE (defs₀ (F := F)) Variants.none c none) E (cc1__matmul_kernel i a3 h3 a4 h4 a5 h5 a6 h6 a7 h7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2
    obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.Kernel.Frame

end
-- ==== Proof.Bits.MatmulRegion.lean ====
/-
  Region 1 of the kernel program, second part: the accumulation over the grid, the proof data, the obligation.

  Along the last grid axis the accumulator is a running sum: after the first coordinate it is zero plus the first
  block product, after each later coordinate what the point before left plus that point's block product; at the last
  coordinate the output block is the accumulator plus the bias row.  `accAt` states the accumulator after every point
  by recursion on the point (over the case runs' found pieces), `outAt` the output block at the emitting points, and
  the region's invariant before point n + 1 holds the accumulator at `accAt n`.  The obligation is then the case
  split first / middle / last, each closed by that case's run.
-/
import proofs.«144853_j39711267619209_1_alg».proof.Proof.Bits.MatmulCases

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region reads -/

/-- Window `w`'s block at grid point `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block whenever the body runs, fetched at that point or not: where it
    is not fetched the block index has not moved (the bias row's block changes only every sixteenth point). -/
theorem mfound_0 {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)
theorem mfound_1 {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)
theorem mfound_2 {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

/-! ## What each case leaves -/

/-- The accumulator's pieces in the first case cover it. -/
theorem acover_first (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : isFirst i) (hc1 : ¬isLast i) (x : Vec F S1024x256 .f32) (w : Vec F S2048x256 .bf16) (b : Vec F S1x2048 .f32) (y : S1024x2048.Idx) :
    ∃ pc ∈ (runFirst c i a3 h3 a4 h4 a5 h5 a6 h6 a7 h7 hc0 hc1 x w b).2.1, y ∈ pc.1.set :=
  View.cover_of_tiledL (runFirst c i a3 h3 a4 h4 a5 h5 a6 h6 a7 h7 hc0 hc1 x w b).2.1 S1024x2048.size (by sl_kernel_rfl) y
/-- What the first case leaves in the accumulator. -/
def accFirst (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : isFirst i) (hc1 : ¬isLast i) (x : Vec F S1024x256 .f32) (w : Vec F S2048x256 .bf16) (b : Vec F S1x2048 .f32) : Vec F S1024x2048 .f32 :=
  accView.read (Elt F) (accView.writes (Elt F) accView.junk (runFirst c i a3 h3 a4 h4 a5 h5 a6 h6 a7 h7 hc0 hc1 x w b).2.1)

theorem acover_middle (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : ¬isLast i) (x : Vec F S1024x256 .f32) (w : Vec F S2048x256 .bf16) (b : Vec F S1x2048 .f32) (s : Vec F S1024x2048 .f32) (y : S1024x2048.Idx) :
    ∃ pc ∈ (runMiddle c i a3 h3 a4 h4 a5 h5 a6 h6 a7 h7 hc0 hc1 x w b s).2.1, y ∈ pc.1.set :=
  View.cover_of_tiledL (runMiddle c i a3 h3 a4 h4 a5 h5 a6 h6 a7 h7 hc0 hc1 x w b s).2.1 S1024x2048.size (by sl_kernel_rfl) y
/-- What a middle case leaves in the accumulator, over what the point before left (`s`). -/
def accMiddle (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : ¬isLast i) (x : Vec F S1024x256 .f32) (w : Vec F S2048x256 .bf16) (b : Vec F S1x2048 .f32) (s : Vec F S1024x2048 .f32) : Vec F S1024x2048 .f32 :=
  accView.read (Elt F) (accView.writes (Elt F) accView.junk (runMiddle c i a3 h3 a4 h4 a5 h5 a6 h6 a7 h7 hc0 hc1 x w b s).2.1)

theorem acover_last (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i) (x : Vec F S1024x256 .f32) (w : Vec F S2048x256 .bf16) (b : Vec F S1x2048 .f32) (s : Vec F S1024x2048 .f32) (y : S1024x2048.Idx) :
    ∃ pc ∈ (runLast c i a3 h3 a4 h4 a5 h5 a6 h6 a7 h7 hc0 hc1 x w b s).2.1, y ∈ pc.1.set :=
  View.cover_of_tiledL (runLast c i a3 h3 a4 h4 a5 h5 a6 h6 a7 h7 hc0 hc1 x w b s).2.1 S1024x2048.size (by sl_kernel_rfl) y
/-- What the last case leaves in the accumulator. -/
def accLast (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i) (x : Vec F S1024x256 .f32) (w : Vec F S2048x256 .bf16) (b : Vec F S1x2048 .f32) (s : Vec F S1024x2048 .f32) : Vec F S1024x2048 .f32 :=
  accView.read (Elt F) (accView.writes (Elt F) accView.junk (runLast c i a3 h3 a4 h4 a5 h5 a6 h6 a7 h7 hc0 hc1 x w b s).2.1)

/-- The output block's pieces in the last case cover it. -/
theorem ocover_last (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i) (x : Vec F S1024x256 .f32) (w : Vec F S2048x256 .bf16) (b : Vec F S1x2048 .f32) (s : Vec F S1024x2048 .f32) (y : S1024x2048.Idx) :
    ∃ pc ∈ (runLast c i a3 h3 a4 h4 a5 h5 a6 h6 a7 h7 hc0 hc1 x w b s).1, y ∈ pc.1.set :=
  View.cover_of_tiledL (runLast c i a3 h3 a4 h4 a5 h5 a6 h6 a7 h7 hc0 hc1 x w b s).1 S1024x2048.size (by sl_kernel_rfl) y
/-- What the last case leaves in the output block. -/
def outLast (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i) (x : Vec F S1024x256 .f32) (w : Vec F S2048x256 .bf16) (b : Vec F S1x2048 .f32) (s : Vec F S1024x2048 .f32) : Vec F S1024x2048 .f32 :=
  outView.read (Elt F) (outView.writes (Elt F) outView.junk (runLast c i a3 h3 a4 h4 a5 h5 a6 h6 a7 h7 hc0 hc1 x w b s).1)

/-! ## The accumulation over the grid -/

theorem notLast_of_first (t : Fin cfg1.N) (h0 : t.val % 16 = 0) : ¬isLast (grid1.coords t) :=
  fun h => by have := (isLast_iff t).mp h; omega
theorem notFirst_of (t : Fin cfg1.N) (h0 : ¬t.val % 16 = 0) : ¬isFirst (grid1.coords t) :=
  fun h => h0 ((isFirst_iff t).mp h)
theorem notLast_of (t : Fin cfg1.N) (h1 : ¬t.val % 16 = 15) : ¬isLast (grid1.coords t) :=
  fun h => h1 ((isLast_iff t).mp h)

/-- THE ACCUMULATOR after the body at position `n`: at a first coordinate the first case's contents; otherwise the
    middle or last case's, over what position `n - 1` left. -/
def accAt (c : Dev nD) : (n : ℕ) → n < cfg1.N → Vec F S1024x2048 .f32
  | 0, hn => accFirst c (grid1.coords ⟨0, hn⟩) (mx ⟨0, hn⟩) (hmx ⟨0, hn⟩) (mw ⟨0, hn⟩) (hmw ⟨0, hn⟩) (mb ⟨0, hn⟩) (hmb ⟨0, hn⟩) (mo ⟨0, hn⟩) (hmo ⟨0, hn⟩) accM (Memref.isWhole_whole _) ((isFirst_iff ⟨0, hn⟩).mpr (Nat.zero_mod _)) (notLast_of_first ⟨0, hn⟩ (Nat.zero_mod _)) (mblk V c 0 ⟨0, hn⟩) (mblk V c 1 ⟨0, hn⟩) (mblk V c 2 ⟨0, hn⟩)
  | n + 1, hn =>
    if h0 : (n + 1) % 16 = 0 then
      accFirst c (grid1.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) accM (Memref.isWhole_whole _) ((isFirst_iff ⟨n + 1, hn⟩).mpr h0) (notLast_of_first ⟨n + 1, hn⟩ h0) (mblk V c 0 ⟨n + 1, hn⟩) (mblk V c 1 ⟨n + 1, hn⟩) (mblk V c 2 ⟨n + 1, hn⟩)
    else
      if h1 : (n + 1) % 16 = 15 then
        accLast c (grid1.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) accM (Memref.isWhole_whole _) (notFirst_of ⟨n + 1, hn⟩ h0) ((isLast_iff ⟨n + 1, hn⟩).mpr h1) (mblk V c 0 ⟨n + 1, hn⟩) (mblk V c 1 ⟨n + 1, hn⟩) (mblk V c 2 ⟨n + 1, hn⟩) (accAt c n (Nat.lt_of_succ_lt hn))
      else
        accMiddle c (grid1.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) accM (Memref.isWhole_whole _) (notFirst_of ⟨n + 1, hn⟩ h0) (notLast_of ⟨n + 1, hn⟩ h1) (mblk V c 0 ⟨n + 1, hn⟩) (mblk V c 1 ⟨n + 1, hn⟩) (mblk V c 2 ⟨n + 1, hn⟩) (accAt c n (Nat.lt_of_succ_lt hn))

theorem prev_lt (t : Fin cfg1.N) : t.val - 1 < cfg1.N := Nat.lt_of_le_of_lt (Nat.sub_le _ _) t.isLt

/-- `accAt` at a first coordinate. -/
theorem accAt_first (c : Dev nD) (t : Fin cfg1.N) (h0 : t.val % 16 = 0) :
    accAt V c t.val t.isLt = accFirst c (grid1.coords t) (mx t) (hmx t) (mw t) (hmw t) (mb t) (hmb t) (mo t) (hmo t) accM (Memref.isWhole_whole _) ((isFirst_iff t).mpr h0) (notLast_of_first t h0) (mblk V c 0 t) (mblk V c 1 t) (mblk V c 2 t) := by
  obtain ⟨n, hn⟩ := t
  cases n with
  | zero => exact rfl
  | succ n => exact (dif_pos h0).trans rfl

/-- `accAt` at a middle coordinate: over what the point before left. -/
theorem accAt_middle (c : Dev nD) (t : Fin cfg1.N) (h0 : ¬t.val % 16 = 0) (h1 : ¬t.val % 16 = 15) :
    accAt V c t.val t.isLt = accMiddle c (grid1.coords t) (mx t) (hmx t) (mw t) (hmw t) (mb t) (hmb t) (mo t) (hmo t) accM (Memref.isWhole_whole _) (notFirst_of t h0) (notLast_of t h1) (mblk V c 0 t) (mblk V c 1 t) (mblk V c 2 t) (accAt V c (t.val - 1) (prev_lt t)) := by
  obtain ⟨n, hn⟩ := t
  cases n with
  | zero => exact (by exfalso; (try dsimp only at h0); exact absurd (Nat.zero_mod _) h0)
  | succ n => exact (dif_neg h0).trans ((dif_neg h1).trans rfl)

/-- `accAt` at a last coordinate: over what the point before left. -/
theorem accAt_last (c : Dev nD) (t : Fin cfg1.N) (h0 : ¬t.val % 16 = 0) (h1 : t.val % 16 = 15) :
    accAt V c t.val t.isLt = accLast c (grid1.coords t) (mx t) (hmx t) (mw t) (hmw t) (mb t) (hmb t) (mo t) (hmo t) accM (Memref.isWhole_whole _) (notFirst_of t h0) ((isLast_iff t).mpr h1) (mblk V c 0 t) (mblk V c 1 t) (mblk V c 2 t) (accAt V c (t.val - 1) (prev_lt t)) := by
  obtain ⟨n, hn⟩ := t
  cases n with
  | zero => exact (by exfalso; (try dsimp only at h0); exact absurd (Nat.zero_mod _) h0)
  | succ n => exact (dif_neg h0).trans ((dif_pos h1).trans rfl)

/-- THE OUTPUT BLOCK after the body at point `t`: at a last coordinate the last case's contents over what the point
    before left in the accumulator; elsewhere the window is idle and this is never consulted. -/
def outAt (c : Dev nD) (t : Fin cfg1.N) : Vec F S1024x2048 .f32 :=
  if h1 : t.val % 16 = 15 then
    outLast c (grid1.coords t) (mx t) (hmx t) (mw t) (hmw t) (mb t) (hmb t) (mo t) (hmo t) accM (Memref.isWhole_whole _) (notFirst_of t (by omega)) ((isLast_iff t).mpr h1) (mblk V c 0 t) (mblk V c 1 t) (mblk V c 2 t) (accAt V c (t.val - 1) (prev_lt t))
  else outView.read (Elt F) outView.junk

theorem outAt_last (c : Dev nD) (t : Fin cfg1.N) (h0 : ¬t.val % 16 = 0) (h1 : t.val % 16 = 15) :
    outAt V c t = outLast c (grid1.coords t) (mx t) (hmx t) (mw t) (hmw t) (mb t) (hmb t) (mo t) (hmo t) accM (Memref.isWhole_whole _) (notFirst_of t h0) ((isLast_iff t).mpr h1) (mblk V c 0 t) (mblk V c 1 t) (mblk V c 2 t) (accAt V c (t.val - 1) (prev_lt t)) := by
  unfold outAt; rw [dif_pos h1]

/-! ## The invariant, point by point -/

/-- Before the first point: the accumulator at anything.  Before point n + 1: the accumulator at `accAt n`.  The
    generator register rides along at some state. -/
def phiAt (c : Dev nD) : (n : ℕ) → n ≤ cfg1.N → sProp 𝕄
  | 0, _ => Pipeline.ΦA spec1 c
  | n + 1, hn => phiWith c (owns (c : Thread nD τ) accM fullShare (accAt V c n hn))

theorem phiAt_zero (c : Dev nD) (n : ℕ) (h : n ≤ cfg1.N) (hz : n = 0) : phiAt V c n h = Pipeline.ΦA spec1 c := by
  subst hz; rfl

theorem phiAt_succ (c : Dev nD) (n : ℕ) (hn : n < cfg1.N) :
    phiAt V c (n + 1) hn = phiWith c (owns (c : Thread nD τ) accM fullShare (accAt V c n hn)) := rfl

theorem phiAt_pos (c : Dev nD) (n : ℕ) (h : n ≤ cfg1.N) (hz : n ≠ 0) :
    phiAt V c n h = phiWith c (owns (c : Thread nD τ) accM fullShare (accAt V c (n - 1) (by omega))) := by
  cases n with
  | zero => exact absurd rfl hz
  | succ n => rfl

/-! ## The region's proof data -/

/-- Region 1 on core `c`: the arrays as the region finds them; after each point the three input buffers at their
    blocks and the output buffer at `outAt`; the invariant `phiAt`; nothing owed. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => outAt V c t
  Φ t := phiAt V c t.val (Nat.le_of_lt_succ t.isLt)
  q _ := fullShare
  owed _ := 0

theorem mdat_A (c : Dev nD) (w : Fin cfg1.W) : (mdat V c).A w = V c (Pipeline.arrRef spec1 w) := by
  dsimp only [mdat]

theorem mphi_castSucc (c : Dev nD) (t : Fin cfg1.N) :
    (mdat V c).Φ t.castSucc = phiAt V c t.val (Nat.le_of_lt t.isLt) := by
  dsimp only [mdat]; simp only [Fin.coe_castSucc]

theorem mafter_0 (c : Dev nD) (t : Fin cfg1.N) : (mdat V c).after 0 t = mblk V c 0 t := by dsimp only [mdat]
theorem mafter_1 (c : Dev nD) (t : Fin cfg1.N) : (mdat V c).after 1 t = mblk V c 1 t := by dsimp only [mdat]
theorem mafter_2 (c : Dev nD) (t : Fin cfg1.N) : (mdat V c).after 2 t = mblk V c 2 t := by dsimp only [mdat]
theorem mafter_3 (c : Dev nD) (t : Fin cfg1.N) : (mdat V c).after 3 t = outAt V c t := by dsimp only [mdat]

theorem mbefore_0 (c : Dev nD) (t : Fin cfg1.N) (d) : (mdat V c).before 0 t d = mblk V c 0 t :=
  mfound_0 V (mdat V c) (mdat_A V c 0) (mafter_0 V c) t d
theorem mbefore_1 (c : Dev nD) (t : Fin cfg1.N) (d) : (mdat V c).before 1 t d = mblk V c 1 t :=
  mfound_1 V (mdat V c) (mdat_A V c 1) (mafter_1 V c) t d
theorem mbefore_2 (c : Dev nD) (t : Fin cfg1.N) (d) : (mdat V c).before 2 t d = mblk V c 2 t :=
  mfound_2 V (mdat V c) (mdat_A V c 2) (mafter_2 V c) t d

/-! ## The obligation at every point -/

def mpre (c : Dev nD) (t : Fin cfg1.N) : sProp 𝕄 :=
  iprop((mdat V c).Φ t.castSucc ∗ (mdat V c).owesAt () t.castSucc
    ∗ (∃ d, owns (c : Thread nD τ) (mx t) fullShare ((mdat V c).before 0 t d))
    ∗ (∃ d, owns (c : Thread nD τ) (mw t) fullShare ((mdat V c).before 1 t d))
    ∗ (∃ d, owns (c : Thread nD τ) (mb t) fullShare ((mdat V c).before 2 t d))
    ∗ (∃ d, owns (c : Thread nD τ) (mo t) fullShare ((mdat V c).before 3 t d)))

def mpost (c : Dev nD) (t : Fin cfg1.N) : sProp 𝕄 :=
  iprop((mdat V c).Φ t.succ ∗ (mdat V c).owesAt () t.succ
    ∗ (mdat V c).leavesExact 0 t
    ∗ (mdat V c).leavesExact 1 t
    ∗ (mdat V c).leavesExact 2 t
    ∗ (mdat V c).leavesExact 3 t)

theorem mleaves_0 (c : Dev nD) (t : Fin cfg1.N) :
    (mdat V c).leavesExact 0 t = owns (c : Thread nD τ) (mx t) fullShare (mblk V c 0 t) := by
  unfold Dat.leavesExact; rw [live_x t, mafter_0]
theorem mleaves_1 (c : Dev nD) (t : Fin cfg1.N) :
    (mdat V c).leavesExact 1 t = owns (c : Thread nD τ) (mw t) fullShare (mblk V c 1 t) := by
  unfold Dat.leavesExact; rw [live_w t, mafter_1]
theorem mleaves_2 (c : Dev nD) (t : Fin cfg1.N) :
    (mdat V c).leavesExact 2 t = owns (c : Thread nD τ) (mb t) fullShare (mblk V c 2 t) := by
  unfold Dat.leavesExact; rw [live_b t, mafter_2]

set_option maxHeartbeats 4800000 in
/-- The body at any point.  The closed forms say which case the point is in; the invariant hands the body the
    accumulator at what the point before left (at anything before the very first point) and takes it back at this
    point's contents; where the output window is idle its buffer goes back as it came. -/
theorem msound (c : Dev nD) (t : Fin cfg1.N) :
    mpre V c t ⊢ wp frame (wpE (defs₀ (F := F)) Variants.none c none) Set.univ (bodyAt1 t) (fun _ => mpost V c t) := by
  unfold mpre mpost bodyAt1
  simp only [mbefore_0, mbefore_1, mbefore_2]
  rw [show (mdat V c).owesAt () t.succ = (mdat V c).owesAt () t.castSucc from rfl]
  rw [show (mdat V c).Φ t.succ = phiAt V c (t.val + 1) t.isLt from rfl, phiAt_succ]
  rw [mleaves_0, mleaves_1, mleaves_2]
  have hN : t.val < 1024 := lt_of_lt_of_eq t.isLt (show cfg1.N = 1024 from N_1)
  by_cases h0 : t.val % 16 = 0
  · -- first coordinate
    have h1 : ¬t.val % 16 = 15 := by omega
    rw [Dat.leavesExact_idle (mdat V c) 3 t (idle_out t (notLast_of t h1)) (noflush_out t (notLast_of t h1))]
    rw [accAt_first V c t h0]
    unfold accFirst; (try dsimp only)
    by_cases hz : t.val = 0
    · rw [mphi_castSucc V c t, phiAt_zero V c _ _ hz, phiA_eq]
      iintro ⟨HΦ, Ho, ⟨%d0, H0⟩, ⟨%d1, H1⟩, ⟨%d2, H2⟩, ⟨%d3, H3⟩⟩
      ihave HΦ' := (phiWith_out c _) $$ HΦ
      icases HΦ' with ⟨HS, Hg⟩
      iapply ((runFirst c (grid1.coords t) _ _ _ _ _ _ _ _ _ _ ((isFirst_iff t).mpr h0) (notLast_of_first t h0) (mblk V c 0 t) (mblk V c 1 t) (mblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · iapply (phiWith_in c _)
        isplitl [HS]
        · unfold owns; iexists _; isplitr
          swap; · iexact HS
          ipureintro; exact View.read_writes_of_cover _ _ _ _ _ (acover_first c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [mphi_castSucc V c t, phiAt_pos V c _ _ hz]
      iintro ⟨HΦ, Ho, ⟨%d0, H0⟩, ⟨%d1, H1⟩, ⟨%d2, H2⟩, ⟨%d3, H3⟩⟩
      ihave HΦ' := (phiWith_out c _) $$ HΦ
      icases HΦ' with ⟨HS, Hg⟩
      iapply ((runFirst c (grid1.coords t) _ _ _ _ _ _ _ _ _ _ ((isFirst_iff t).mpr h0) (notLast_of_first t h0) (mblk V c 0 t) (mblk V c 1 t) (mblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · iapply (phiWith_in c _)
        isplitl [HS]
        · unfold owns; iexists _; isplitr
          swap; · iexact HS
          ipureintro; exact View.read_writes_of_cover _ _ _ _ _ (acover_first c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · -- last coordinate
      rw [show (mdat V c).leavesExact 3 t = owns (c : Thread nD τ) (mo t) fullShare ((mdat V c).after 3 t) from by
        unfold Dat.leavesExact; rw [live_out t ((isLast_iff t).mpr h1)], mafter_3]
      rw [accAt_last V c t h0 h1, outAt_last V c t h0 h1]
      unfold accLast outLast; (try dsimp only)
      rw [mphi_castSucc V c t, phiAt_pos V c _ _ hz]
      iintro ⟨HΦ, Ho, ⟨%d0, H0⟩, ⟨%d1, H1⟩, ⟨%d2, H2⟩, ⟨%d3, H3⟩⟩
      ihave HΦ' := (phiWith_out c _) $$ HΦ
      icases HΦ' with ⟨HS, Hg⟩
      iapply ((runLast c (grid1.coords t) _ _ _ _ _ _ _ _ _ _ (notFirst_of t h0) ((isLast_iff t).mpr h1) (mblk V c 0 t) (mblk V c 1 t) (mblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hg]
      · iapply (phiWith_in c _)
        isplitl [HS]
        · unfold owns; iexists _; isplitr
          swap; · iexact HS
          ipureintro; exact View.read_writes_of_cover _ _ _ _ _ (acover_last c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · -- a middle coordinate
      rw [Dat.leavesExact_idle (mdat V c) 3 t (idle_out t (notLast_of t h1)) (noflush_out t (notLast_of t h1))]
      rw [accAt_middle V c t h0 h1]
      unfold accMiddle; (try dsimp only)
      rw [mphi_castSucc V c t, phiAt_pos V c _ _ hz]
      iintro ⟨HΦ, Ho, ⟨%d0, H0⟩, ⟨%d1, H1⟩, ⟨%d2, H2⟩, ⟨%d3, H3⟩⟩
      ihave HΦ' := (phiWith_out c _) $$ HΦ
      icases HΦ' with ⟨HS, Hg⟩
      iapply ((runMiddle c (grid1.coords t) _ _ _ _ _ _ _ _ _ _ (notFirst_of t h0) (notLast_of t h1) (mblk V c 0 t) (mblk V c 1 t) (mblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · iapply (phiWith_in c _)
        isplitl [HS]
        · unfold owns; iexists _; isplitr
          swap; · iexact HS
          ipureintro; exact View.read_writes_of_cover _ _ _ _ _ (acover_middle c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of region 1, at every point. -/
theorem mobligation (c : Dev nD) : BodyObligation (mdat (F := F) V c) (defs₀ (F := F)) Variants.none () Set.univ := fun t => by
  rw [bigSep_W1, bigSep_W1]
  exact msound V c t

/-- What the region is entered with is the invariant before the first point. -/
theorem mphi_in (c : Dev nD) : Pipeline.ΦA spec1 c ⊢ (mdat V c).Φ 0 := by
  rw [show (mdat V c).Φ 0 = phiAt V c 0 (Nat.zero_le _) from rfl, phiAt_zero V c 0 _ rfl]
  try exact Idealize.SL.BI.Entails.refl _

/-- After the last point the invariant gives the accumulator back at contents no longer named. -/
theorem mphi_out (c : Dev nD) : (mdat V c).Φ (Fin.last cfg1.N) ⊢ Pipeline.ΦA spec1 c := by
  have ht : (Fin.last cfg1.N).val ≠ 0 := by rw [Fin.val_last]; have : cfg1.N = 1024 := N_1; omega
  rw [show (mdat V c).Φ (Fin.last cfg1.N) = phiAt V c (Fin.last cfg1.N).val (Nat.le_of_lt_succ (Fin.last cfg1.N).isLt) from rfl,
    phiAt_pos V c _ _ ht, phiA_eq]
  iintro HΦ
  ihave HΦ' := (phiWith_out c _) $$ HΦ
  icases HΦ' with ⟨HS, Hg⟩
  iapply (phiWith_in c _)
  isplitl [HS]
  · iexists _; iexact HS
  iexact Hg

end Cert.Kernel.Frame

end
-- ==== Proof.Bits.KernelRun.lean ====
/-
  The kernel program's run, from launch to return.

  @main is: region 0 (the weight sample), a stretch of five host operations (the bias sample, reshaped to one row),
  region 1 (the blocked product plus bias).  The buffer contents at the four boundaries are a fold from the launch
  memory: `E0` at launch; `E1` after region 0, which changes only its output array, to what its write-backs leave;
  `E2` after the host stretch; `E3` after region 1, likewise.  Every argument array is read back through the fold to
  its launch contents, and the result array at the end is region 1's output array after its last write-back.  The
  run itself is the several-regions launch over the two regions' segment records.
-/
import proofs.«144853_j39711267619209_1_alg».proof.Proof.Bits.WeightRegion
import proofs.«144853_j39711267619209_1_alg».proof.Proof.Bits.MatmulRegion
import proofs.«144853_j39711267619209_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev E0 : Dev nD → Valuation τ sig (Elt F) := fun c b => (s₀ m ρ).mem ((c : Dev nD), b)
/-- The same read at the TensorCore's references: what region 0 is entered with. -/
abbrev B0 : (c : Dev nD) → (b : Ref sig .tc) → Buf (Elt F) ((c : Thread nD τ).loc b) := fun c b => E0 m ρ c b
/-- After region 0: its arrays at what the pipeline leaves, every other buffer as before. -/
def E1 (c : Dev nD) : Valuation τ sig (Elt F) :=
  Pipeline.withArrays spec0 c (E0 m ρ c) fun w => (wdat (B0 m ρ) c).arrAt w cfg0.N
theorem E1_arr (c : Dev nD) (w : Fin cfg0.W) :
    E1 m ρ c (Proc.devRef .tc (Pipeline.arrRef spec0 w)) = (wdat (B0 m ρ) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
abbrev B1 : (c : Dev nD) → (b : Ref sig .tc) → Buf (Elt F) ((c : Thread nD τ).loc b) := fun c b => E1 m ρ c b
theorem hF0 (c : Dev nD) (w : Fin cfg0.W) : (wdat (B0 m ρ) c).arrAt w cfg0.N = B1 m ρ c (Pipeline.arrRef spec0 w) :=
  (E1_arr m ρ c w).symm
theorem hrest0 (c : Dev nD) : ∀ b, b ∉ Finset.univ.image (Pipeline.arrRef spec0) → B1 m ρ c b = B0 m ρ c b :=
  fun b hb => E1_of_ne m ρ c b fun w e => hb (Finset.mem_image.mpr ⟨w, Finset.mem_univ _, e⟩)

/-- After the host stretch (region 1's entry). -/
abbrev E2 : Dev nD → Valuation τ sig (Elt F) := fun c => StableHlo.after hostOps1 (E1 m ρ c)
abbrev B2 : (c : Dev nD) → (b : Ref sig .tc) → Buf (Elt F) ((c : Thread nD τ).loc b) := fun c b => E2 m ρ c b
/-- After region 1. -/
def E3 (c : Dev nD) : Valuation τ sig (Elt F) :=
  Pipeline.withArrays spec1 c (E2 m ρ c) fun w => (mdat (B2 m ρ) c).arrAt w cfg1.N
theorem E3_arr (c : Dev nD) (w : Fin cfg1.W) :
    E3 m ρ c (Proc.devRef .tc (Pipeline.arrRef spec1 w)) = (mdat (B2 m ρ) c).arrAt w cfg1.N := by
  unfold E3; exact Pipeline.withArrays_arr spec1 launch1.win.arr_inj c _ _ w
theorem E3_of_ne (c : Dev nD) (b : Ref sig .tc) (hb : ∀ w, Pipeline.arrRef spec1 w ≠ b) :
    E3 m ρ c (Proc.devRef .tc b) = E2 m ρ c (Proc.devRef .tc b) := by
  unfold E3; exact Pipeline.withArrays_of_ne spec1 c _ _ b hb
abbrev B3 : (c : Dev nD) → (b : Ref sig .tc) → Buf (Elt F) ((c : Thread nD τ).loc b) := fun c b => E3 m ρ c b
theorem hF1 (c : Dev nD) (w : Fin cfg1.W) : (mdat (B2 m ρ) c).arrAt w cfg1.N = B3 m ρ c (Pipeline.arrRef spec1 w) :=
  (E3_arr m ρ c w).symm
theorem hrest1 (c : Dev nD) : ∀ b, b ∉ Finset.univ.image (Pipeline.arrRef spec1) → B3 m ρ c b = B2 m ρ c b :=
  fun b hb => E3_of_ne m ρ c b fun w e => hb (Finset.mem_image.mpr ⟨w, Finset.mem_univ _, e⟩)

/-! ## The arguments end as launched -/

/-- `main_arg0` (the activations): region 1 reads it through its first window, the host stretch does not write it, region 0
    does not see it. -/
theorem E3_main_arg0 (c : Dev nD) : E3 m ρ c (Proc.devRef .tc main_arg0) = m ((c : Thread nD τ).loc main_arg0) :=
  calc E3 m ρ c (Proc.devRef .tc main_arg0)
    _ = E2 m ρ c (Proc.devRef .tc main_arg0) := (E3_arr m ρ c 0).trans (((mdat (B2 m ρ) c).arrAt_in 0 rfl _).trans (mdat_A (B2 m ρ) c 0))
    _ = E1 m ρ c (Proc.devRef .tc main_arg0) := StableHlo.after_of_writes_sub hostOps1 _ hostOps1_writes (r := main_arg0) (by decide)
    _ = E0 m ρ c (Proc.devRef .tc main_arg0) := E1_of_ne m ρ c main_arg0 (by decide)
    _ = m ((c : Thread nD τ).loc main_arg0) := rfl

/-- `main_arg1`: region 0 reads it through window 0; nothing after writes it. -/
theorem E3_main_arg1 (c : Dev nD) : E3 m ρ c (Proc.devRef .tc main_arg1) = m ((c : Thread nD τ).loc main_arg1) :=
  calc E3 m ρ c (Proc.devRef .tc main_arg1)
    _ = E2 m ρ c (Proc.devRef .tc main_arg1) := E3_of_ne m ρ c main_arg1 (by decide)
    _ = E1 m ρ c (Proc.devRef .tc main_arg1) := StableHlo.after_of_writes_sub hostOps1 _ hostOps1_writes (r := main_arg1) (by decide)
    _ = E0 m ρ c (Proc.devRef .tc main_arg1) := (E1_arr m ρ c 0).trans (((wdat (B0 m ρ) c).arrAt_in 0 rfl _).trans (wdat_A (B0 m ρ) c 0))
    _ = m ((c : Thread nD τ).loc main_arg1) := rfl

/-- `main_arg2`: region 0 reads it through window 1; nothing after writes it. -/
theorem E3_main_arg2 (c : Dev nD) : E3 m ρ c (Proc.devRef .tc main_arg2) = m ((c : Thread nD τ).loc main_arg2) :=
  calc E3 m ρ c (Proc.devRef .tc main_arg2)
    _ = E2 m ρ c (Proc.devRef .tc main_arg2) := E3_of_ne m ρ c main_arg2 (by decide)
    _ = E1 m ρ c (Proc.devRef .tc main_arg2) := StableHlo.after_of_writes_sub hostOps1 _ hostOps1_writes (r := main_arg2) (by decide)
    _ = E0 m ρ c (Proc.devRef .tc main_arg2) := (E1_arr m ρ c 1).trans (((wdat (B0 m ρ) c).arrAt_in 1 rfl _).trans (wdat_A (B0 m ρ) c 1))
    _ = m ((c : Thread nD τ).loc main_arg2) := rfl

/-- `main_arg3`: region 0 reads it through window 2; nothing after writes it. -/
theorem E3_main_arg3 (c : Dev nD) : E3 m ρ c (Proc.devRef .tc main_arg3) = m ((c : Thread nD τ).loc main_arg3) :=
  calc E3 m ρ c (Proc.devRef .tc main_arg3)
    _ = E2 m ρ c (Proc.devRef .tc main_arg3) := E3_of_ne m ρ c main_arg3 (by decide)
    _ = E1 m ρ c (Proc.devRef .tc main_arg3) := StableHlo.after_of_writes_sub hostOps1 _ hostOps1_writes (r := main_arg3) (by decide)
    _ = E0 m ρ c (Proc.devRef .tc main_arg3) := (E1_arr m ρ c 2).trans (((wdat (B0 m ρ) c).arrAt_in 2 rfl _).trans (wdat_A (B0 m ρ) c 2))
    _ = m ((c : Thread nD τ).loc main_arg3) := rfl

/-- `main_arg4` (a bias parameter): only the host stretch reads it. -/
theorem E3_main_arg4 (c : Dev nD) : E3 m ρ c (Proc.devRef .tc main_arg4) = m ((c : Thread nD τ).loc main_arg4) :=
  calc E3 m ρ c (Proc.devRef .tc main_arg4)
    _ = E2 m ρ c (Proc.devRef .tc main_arg4) := E3_of_ne m ρ c main_arg4 (by decide)
    _ = E1 m ρ c (Proc.devRef .tc main_arg4) := StableHlo.after_of_writes_sub hostOps1 _ hostOps1_writes (r := main_arg4) (by decide)
    _ = E0 m ρ c (Proc.devRef .tc main_arg4) := E1_of_ne m ρ c main_arg4 (by decide)
    _ = m ((c : Thread nD τ).loc main_arg4) := rfl

/-- `main_arg5` (a bias parameter): only the host stretch reads it. -/
theorem E3_main_arg5 (c : Dev nD) : E3 m ρ c (Proc.devRef .tc main_arg5) = m ((c : Thread nD τ).loc main_arg5) :=
  calc E3 m ρ c (Proc.devRef .tc main_arg5)
    _ = E2 m ρ c (Proc.devRef .tc main_arg5) := E3_of_ne m ρ c main_arg5 (by decide)
    _ = E1 m ρ c (Proc.devRef .tc main_arg5) := StableHlo.after_of_writes_sub hostOps1 _ hostOps1_writes (r := main_arg5) (by decide)
    _ = E0 m ρ c (Proc.devRef .tc main_arg5) := E1_of_ne m ρ c main_arg5 (by decide)
    _ = m ((c : Thread nD τ).loc main_arg5) := rfl

/-- `main_arg6` (a bias parameter): only the host stretch reads it. -/
theorem E3_main_arg6 (c : Dev nD) : E3 m ρ c (Proc.devRef .tc main_arg6) = m ((c : Thread nD τ).loc main_arg6) :=
  calc E3 m ρ c (Proc.devRef .tc main_arg6)
    _ = E2 m ρ c (Proc.devRef .tc main_arg6) := E3_of_ne m ρ c main_arg6 (by decide)
    _ = E1 m ρ c (Proc.devRef .tc main_arg6) := StableHlo.after_of_writes_sub hostOps1 _ hostOps1_writes (r := main_arg6) (by decide)
    _ = E0 m ρ c (Proc.devRef .tc main_arg6) := E1_of_ne m ρ c main_arg6 (by decide)
    _ = m ((c : Thread nD τ).loc main_arg6) := rfl

/-- The result array at the end: region 1's output array after its last write-back. -/
theorem E3_main_v6 (c : Dev nD) : E3 m ρ c (Proc.devRef .tc main_v6) = (mdat (B2 m ρ) c).arrAt 3 cfg1.N :=
  E3_arr m ρ c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => wdat (B0 m ρ) c
  | ⟨1, _⟩ => fun c => mdat (B2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `E3`, the generator register at some state. -/
abbrev Tₙ (c : Dev nD) : sProp 𝕄 := iprop(StableHlo.held (c : Thread nD τ) (Pipeline.ucRefs τ sig) (E3 m ρ c) ∗ ∃ r, prngReg c r)

/-! ## The regions as segments -/

set_option backward.isDefEq.respectTransparency.types false in
/-- Region 0 as a segment: entered with every unscoped buffer at `E0`, left with them at `E1`.  Its arrays are
    split out of the unscoped buffers on the way in and put back at their final contents on the way out; the generator
    register passes through the invariant; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (wobligation (B0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (E1 m ρ c) ∗ R c)
  X c := iprop(∃ r, prngReg c r)
  Y c := iprop(∃ r, prngReg c r)
  Z c := Pipeline.unscopedRest (Ix := Unit) (Name := ℕ) (U := UR sig nD τ) (Lvl := ℕ) spec0 c (B0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B0 m ρ c) (B1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `E2`, left with them at `E3`.  Its arrays are
    split out of the unscoped buffers on the way in and put back at their final contents on the way out; the generator
    register passes through the invariant; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mobligation (B2 m ρ) c).loose
  hwaits := Pipeline.hwaits_of_owed_zero _ _ _ _ L lv 1 fun _ _ => rfl
  pre c := iprop(StableHlo.held (c : Thread nD τ) (Pipeline.ucRefs τ sig) (E2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h1.trans (mphi_in (B2 m ρ) c)
  hout c := by
    rw [Pipeline.ownSems0_none]
    have h1 : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (mphi_out (B2 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B2 m ρ c) (B3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (E1 m ρ)),
    .region (reg1 m ρ) ]
theorem main_run (c : Dev nD) : main (F := F) c = Pipeline.Seg.run (segs m ρ) := (main_chain c).trans (by chain_rfl)

set_option backward.isDefEq.respectTransparency.types false in
/-- THE RUN.  From any memory with zero counters, every weakly fair execution of @main terminates without a fault, the
    result array ends at region 1's output array after its last write-back, and every argument array ends as launched. -/
theorem kernel_run : θ_run defs (onTc (τ := τ) (main (F := F))) ⟨m, fun _ => 0, ρ⟩ (fun r => ∀ c : Dev nD,
      r.2.mem ((c.tc : Thread nD τ).loc main_v6) = (mdat (B2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m ρ c b)
    (hfin := fun c s' => by
      iintro ⟨⟨Hh, -⟩, HSI⟩
      unfold StableHlo.held
      imodintro
      iapply (pointsTo_read_all (Pipeline.ucRefs τ sig) (fun b => (((c : Thread nD τ)).1, b)) (E3 m ρ c) s')
      isplitl [Hh] <;> iassumption)
    (hQ := fun s h c =>
      ⟨(h c _ (mem_uc main_v6 (by decide))).trans (E3_main_v6 m ρ c),
       (h c _ (mem_uc main_arg0 (by decide))).trans (E3_main_arg0 m ρ c),
       (h c _ (mem_uc main_arg1 (by decide))).trans (E3_main_arg1 m ρ c),
       (h c _ (mem_uc main_arg2 (by decide))).trans (E3_main_arg2 m ρ c),
       (h c _ (mem_uc main_arg3 (by decide))).trans (E3_main_arg3 m ρ c),
       (h c _ (mem_uc main_arg4 (by decide))).trans (E3_main_arg4 m ρ c),
       (h c _ (mem_uc main_arg5 (by decide))).trans (E3_main_arg5 m ρ c),
       (h c _ (mem_uc main_arg6 (by decide))).trans (E3_main_arg6 m ρ c)⟩)

end Cert.Kernel.Frame

end
-- ==== Proof.WeightRegion.lean ====
/-
  Region 0 of the kernel program: the weight sample, block by block.

  The first pallas_call runs over a 32 × 4 grid of blocks of 512 × 1024 entries.  At a grid point it is handed the
  blocks of the three weight arrays (mean, rho, noise) and leaves in the output block, entry by entry,
  `mean + log1p (exp rho) * noise`, narrowed to the output's element type.  This module states that as the
  region's proof data — each input block stays as fetched, the output block is the one store's value over the
  three input blocks — and proves the per-point obligation by running the body once over symbolic blocks.
  Everything is generic in the float instance and in `V`, the buffer contents when the region is entered.
-/
import proofs.«144853_j39711267619209_1_alg».proof.Proof.Gen.KernelIdeal.Launch
import proofs.«144853_j39711267619209_1_alg».proof.Proof.Gen.KernelIdeal.Skeleton
import proofs.«144853_j39711267619209_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region reads -/

/-- Window `w`'s block at grid point `t`: the rectangle of its array (as the region finds it) that the index map
    selects there. -/
def wblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs: the block is fetched at every point
    the index moves, and the body leaves it in place. -/
theorem wfound_0 {c : Dev nD} (dat : Dat τ (Elt F) Unit ℕ (UR sig nD τ) ℕ cfg0 c) (hA : dat.A 0 = V c (Pipeline.arrRef spec0 0))
    (hafter : ∀ t, dat.after 0 t = wblk V c 0 t) (t : Fin cfg0.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)
theorem wfound_1 {c : Dev nD} (dat : Dat τ (Elt F) Unit ℕ (UR sig nD τ) ℕ cfg0 c) (hA : dat.A 1 = V c (Pipeline.arrRef spec0 1))
    (hafter : ∀ t, dat.after 1 t = wblk V c 1 t) (t : Fin cfg0.N) (d) : dat.before 1 t d = wblk V c 1 t :=
  (dat.before_in_eq_fetched 1 rfl (fun _ => rfl) (fun _ _ _ => rfl) (fun t => by rw [hafter]; unfold Dat.blockOf wblk; rw [hA]; try rfl) t d).trans
    (by unfold Dat.fetched Dat.blockOf wblk; rw [hA]; try rfl)
theorem wfound_2 {c : Dev nD} (dat : Dat τ (Elt F) Unit ℕ (UR sig nD τ) ℕ cfg0 c) (hA : dat.A 2 = V c (Pipeline.arrRef spec0 2))
    (hafter : ∀ t, dat.after 2 t = wblk V c 2 t) (t : Fin cfg0.N) (d) : dat.before 2 t d = wblk V c 2 t :=
  (dat.before_in_eq_fetched 2 rfl (fun _ => rfl) (fun _ _ _ => rfl) (fun t => by rw [hafter]; unfold Dat.blockOf wblk; rw [hA]; try rfl) t d).trans
    (by unfold Dat.fetched Dat.blockOf wblk; rw [hA]; try rfl)

/-! ## What one point writes -/

/-- The whole 512 × 1024 block: the one rectangle every load and the store of this body go through. -/
abbrev wrect : Rect S512x1024 := Rect.unit (s := S512x1024) ![0, 0] S512x1024.size inb_S512x1024_S512x1024_0_0

/-- The output block after the body, from the three input blocks: the single store's value, laid over the whole block. -/
def wout (mu rho eps : Vec F S512x1024 .f32) : Vec F S512x1024 .bf16 :=
  View.canon [⟨wrect, k0_pay1 (View.ld mu wrect) (View.ld rho wrect) (View.ld eps wrect)⟩]

/-- That one store covers the block. -/
theorem wcover (p0 : Vec F S512x1024 .bf16) (y : S512x1024.Idx) :
    ∃ pc ∈ ([⟨wrect, p0⟩] : List (View.Piece (Elt F) S512x1024 .bf16)), y ∈ pc.1.set :=
  View.cover_of_tiled [⟨wrect, p0⟩] S512x1024.size (by rfl) y

/-! ## The body run once, over symbolic blocks -/

set_option maxHeartbeats 1000000 in
/-- On whole staging buffers — the three inputs at `mu`, `rho`, `eps`, the output at anything — the body runs to
    its end, leaves the inputs as they were and the output at `wout mu rho eps`. -/
theorem wbody_run (c : Dev nD) (E : Set ℕ) (i : grid0.Coords)
    (a2 : Memref sig .tc .vmem S512x1024 .f32) (h2 : a2.IsWhole) (a3 : Memref sig .tc .vmem S512x1024 .f32) (h3 : a3.IsWhole)
    (a4 : Memref sig .tc .vmem S512x1024 .f32) (h4 : a4.IsWhole) (a5 : Memref sig .tc .vmem S512x1024 .bf16) (h5 : a5.IsWhole)
    (mu rho eps : Vec F S512x1024 .f32) (K : PUnit → sProp 𝕄) :
    iprop(owns (c : Thread nD τ) a2 fullShare mu ∗ owns (c : Thread nD τ) a3 fullShare rho ∗ owns (c : Thread nD τ) a4 fullShare eps
        ∗ (∃ d, owns (c : Thread nD τ) a5 fullShare d)
        ∗ (iprop(owns (c : Thread nD τ) a2 fullShare mu ∗ owns (c : Thread nD τ) a3 fullShare rho ∗ owns (c : Thread nD τ) a4 fullShare eps
            ∗ owns (c : Thread nD τ) a5 fullShare (wout mu rho eps)) -∗ K ⟨⟩))
      ⊢ wp frame (wpE (defs₀ (F := F)) Variants.none c none) E (cc0__weight_prep_kernel i a2 h2 a3 h3 a4 h4 a5 h5) K := by
  simp only [cc0__weight_prep_kernel_eq_skeleton]; unfold cc0__weight_prep_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wcover _)

/-! ## The region's proof data -/

/-- Region 0 on core `c`: the arrays as the region finds them; after each point every input buffer still at its
    block and the output buffer at `wout` of the three input blocks; the invariant is the scoped buffers no
    window stages and the generator register, untouched; nothing is owed. -/
def wdat (c : Dev nD) : Dat τ (Elt F) Unit ℕ (UR sig nD τ) ℕ cfg0 c where
  A w := V c (Pipeline.arrRef spec0 w)
  after w t := match w with
    | ⟨0, _⟩ => wblk V c 0 t
    | ⟨1, _⟩ => wblk V c 1 t
    | ⟨2, _⟩ => wblk V c 2 t
    | ⟨3, _⟩ => wout (wblk V c 0 t) (wblk V c 1 t) (wblk V c 2 t)
  Φ _ := Pipeline.ΦA spec0 c
  q _ := fullShare
  owed _ := 0

theorem wdat_A (c : Dev nD) (w : Fin cfg0.W) : (wdat V c).A w = V c (Pipeline.arrRef spec0 w) := by
  dsimp only [wdat]

theorem wafter_0 (c : Dev nD) (t : Fin cfg0.N) : (wdat V c).after 0 t = wblk V c 0 t := by dsimp only [wdat]
theorem wafter_1 (c : Dev nD) (t : Fin cfg0.N) : (wdat V c).after 1 t = wblk V c 1 t := by dsimp only [wdat]
theorem wafter_2 (c : Dev nD) (t : Fin cfg0.N) : (wdat V c).after 2 t = wblk V c 2 t := by dsimp only [wdat]
theorem wafter_3 (c : Dev nD) (t : Fin cfg0.N) :
    (wdat V c).after 3 t = wout (wblk V c 0 t) (wblk V c 1 t) (wblk V c 2 t) := by dsimp only [wdat]

theorem wbefore_0 (c : Dev nD) (t : Fin cfg0.N) (d) : (wdat V c).before 0 t d = wblk V c 0 t :=
  wfound_0 V (wdat V c) (wdat_A V c 0) (wafter_0 V c) t d
theorem wbefore_1 (c : Dev nD) (t : Fin cfg0.N) (d) : (wdat V c).before 1 t d = wblk V c 1 t :=
  wfound_1 V (wdat V c) (wdat_A V c 1) (wafter_1 V c) t d
theorem wbefore_2 (c : Dev nD) (t : Fin cfg0.N) (d) : (wdat V c).before 2 t d = wblk V c 2 t :=
  wfound_2 V (wdat V c) (wdat_A V c 2) (wafter_2 V c) t d

/-! ## The obligation at every point -/

/-- What the body is called with at point `t`, the windows one by one, -/
def wpre (c : Dev nD) (t : Fin cfg0.N) : sProp 𝕄 :=
  iprop((wdat V c).Φ t.castSucc ∗ (wdat V c).owesAt () t.castSucc
    ∗ (∃ d, owns (c : Thread nD τ) (st0_0 t) fullShare ((wdat V c).before 0 t d))
    ∗ (∃ d, owns (c : Thread nD τ) (st0_1 t) fullShare ((wdat V c).before 1 t d))
    ∗ (∃ d, owns (c : Thread nD τ) (st0_2 t) fullShare ((wdat V c).before 2 t d))
    ∗ (∃ d, owns (c : Thread nD τ) (st0_3 t) fullShare ((wdat V c).before 3 t d)))

/-- and what it returns. -/
def wpost (c : Dev nD) (t : Fin cfg0.N) : sProp 𝕄 :=
  iprop((wdat V c).Φ t.succ ∗ (wdat V c).owesAt () t.succ
    ∗ owns (c : Thread nD τ) (st0_0 t) fullShare ((wdat V c).after 0 t)
    ∗ owns (c : Thread nD τ) (st0_1 t) fullShare ((wdat V c).after 1 t)
    ∗ owns (c : Thread nD τ) (st0_2 t) fullShare ((wdat V c).after 2 t)
    ∗ owns (c : Thread nD τ) (st0_3 t) fullShare ((wdat V c).after 3 t))

theorem wsound (c : Dev nD) (t : Fin cfg0.N) :
    wpre V c t ⊢ wp frame (wpE (defs₀ (F := F)) Variants.none c none) Set.univ (bodyAt0 t) (fun _ => wpost V c t) := by
  unfold wpre wpost bodyAt0
  simp only [wbefore_0, wbefore_1, wbefore_2]
  rw [show (wdat V c).Φ t.succ = (wdat V c).Φ t.castSucc from rfl,
    show (wdat V c).owesAt () t.succ = (wdat V c).owesAt () t.castSucc from rfl,
    wafter_0, wafter_1, wafter_2, wafter_3]
  iintro ⟨HΦ, Ho, ⟨%d0, H0⟩, ⟨%d1, H1⟩, ⟨%d2, H2⟩, ⟨%d3, H3⟩⟩
  iapply (wbody_run c Set.univ _ _ _ _ _ _ _ _ _ (wblk V c 0 t) (wblk V c 1 t) (wblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem wobligation (c : Dev nD) : BodyObligation (wdat (F := F) V c) (defs₀ (F := F)) Variants.none () Set.univ := fun t => by
  rw [bigSep_W0, bigSep_W0]
  exact wsound V c t

end Cert.KernelIdeal.Frame

end
-- ==== Proof.MatmulCases.lean ====
/-
  Region 1 of the kernel program, first part: when the body resets, when it emits, and the body run case by case.

  The second pallas_call runs over an 8 × 8 × 16 grid; the last axis walks the 16 blocks of 256 along the
  contracted dimension.  At a point the body (i) zeroes its 1024 × 2048 accumulator when the last coordinate is 0,
  (ii) adds to the accumulator the product of the point's block of `x` with its block of the weight sample,
  (iii) when the last coordinate is 15, stores accumulator + bias row into the output block.  Only three of the
  four branch combinations occur: first (reset, no emit), middle (neither) and last (emit, no reset).  The
  output window is idle — neither stored nor written back — away from the last coordinate.
  Here: the two conditions in closed form over the 1024 points, the idle facts, and for each case the body run
  once over symbolic blocks, the pieces it leaves in the accumulator (and, in the last case, in the output) being
  whatever the run hands back.
-/
import proofs.«144853_j39711267619209_1_alg».proof.Proof.Gen.KernelIdeal.Launch
import proofs.«144853_j39711267619209_1_alg».proof.Proof.Gen.KernelIdeal.Skeleton
import proofs.«144853_j39711267619209_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body's first branch is taken: the last grid coordinate is 0 (the accumulator is reset). -/
abbrev isFirst (i : grid1.Coords) : Prop := (Scalar.cmpi .ne (Scalar.extui (Scalar.cmpi .eq (BitVec.ofNat 32 (i 2).val) 0#32)) 0#32) = 1#1
/-- Over the grid in row-major order that is every sixteenth point, starting at 0. -/
theorem isFirst_iff : ∀ t : Fin cfg1.N, isFirst (grid1.coords t) ↔ t.val % 16 = 0 :=
  (by decide +kernel : ∀ t : Fin grid1.N, isFirst (grid1.coords t) ↔ t.val % 16 = 0)

/-- The body's second branch is taken: the last grid coordinate is 15 (the output block is emitted). -/
abbrev isLast (i : grid1.Coords) : Prop := k1_cond2 i = 1#1
/-- Every sixteenth point, starting at 15. -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_x : ∀ t : Fin cfg1.N, cfg1.idle 0 (grid1.coords t) = false := by decide +kernel
theorem live_w : ∀ t : Fin cfg1.N, cfg1.idle 1 (grid1.coords t) = false := by decide +kernel
theorem live_b : ∀ t : Fin cfg1.N, cfg1.idle 2 (grid1.coords t) = false := by decide +kernel
/-- Away from the last coordinate the output window is idle and is not written back; -/
theorem idle_out : ∀ t : Fin cfg1.N, ¬isLast (grid1.coords t) → cfg1.idle 3 (grid1.coords t) = true := by decide +kernel
theorem noflush_out : ∀ t : Fin cfg1.N, ¬isLast (grid1.coords t) → (cfg1.win 3).flush t = false := by decide +kernel
/-- at the last coordinate it is live. -/
theorem live_out : ∀ t : Fin cfg1.N, isLast (grid1.coords t) → cfg1.idle 3 (grid1.coords t) = false := by decide +kernel

/-! ## The buffers the body is called on -/

/-- One staging buffer of the output window, through which its contents are stated. -/
abbrev outView : View sig .tc .vmem S1024x2048 .f32 := (Memref.whole cc1_stg3_0 : Memref sig .tc .vmem S1024x2048 .f32).view
abbrev mx (t : Fin cfg1.N) : Memref sig .tc .vmem S1024x256 .f32 := win1_0.stage (cfg1.slots t 0)
abbrev hmx (t : Fin cfg1.N) : (mx t).IsWhole := hstage1_0 ((cfg1.slots t 0).cast nbuf1_0)
abbrev mw (t : Fin cfg1.N) : Memref sig .tc .vmem S2048x256 .bf16 := win1_1.stage (cfg1.slots t 1)
abbrev hmw (t : Fin cfg1.N) : (mw t).IsWhole := hstage1_1 ((cfg1.slots t 1).cast nbuf1_1)
abbrev mb (t : Fin cfg1.N) : Memref sig .tc .vmem S1x2048 .f32 := win1_2.stage (cfg1.slots t 2)
abbrev hmb (t : Fin cfg1.N) : (mb t).IsWhole := hstage1_2 ((cfg1.slots t 2).cast nbuf1_2)
abbrev mo (t : Fin cfg1.N) : Memref sig .tc .vmem S1024x2048 .f32 := win1_3.stage (cfg1.slots t 3)
abbrev hmo (t : Fin cfg1.N) : (mo t).IsWhole := hstage1_3 ((cfg1.slots t 3).cast nbuf1_3)
/-- The accumulator: a whole scoped buffer of the kernel's own, passed beside the windows. -/
abbrev accM : Memref sig .tc .vmem S1024x2048 .f32 := Memref.whole cc1_scratch0
abbrev accView : View sig .tc .vmem S1024x2048 .f32 := accM.view

/-- The scoped buffers of the core that are neither staging buffers of this region nor its accumulator — the first
    region's eight staging buffers — each whole at some contents: the body never touches them. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's invariant with the accumulator's part `S` singled out: the other scoped buffers at anything, `S`,
    and the generator register at some state. -/
def phiWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

/-- What the launch hands the region is that invariant with the accumulator at anything. -/
theorem phiA_eq (c : Dev nD) :
    (Pipeline.ΦA spec1 c : sProp 𝕄) = phiWith c iprop(∃ d, owns (c : Thread nD τ) accM fullShare d) := by
  unfold Pipeline.ΦA phiWith; rw [scopedRest1_eq]; simp only [accM, owns_whole]; try rfl

/-- The accumulator's part taken out of the invariant, -/
theorem phiWith_out (c : Dev nD) (S : sProp 𝕄) : phiWith c S ⊢ iprop(S ∗ otherStaging c ∗ (∃ r, prngReg c r)) := by
  unfold phiWith otherStaging
  iintro ⟨⟨R0, R1, R2, R3, R4, R5, R6, R7, HS⟩, Hg⟩
  isplitl [HS]; · iexact HS
  isplitl [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  iexact Hg

/-- and put back. -/
theorem phiWith_in (c : Dev nD) (S : sProp 𝕄) : iprop(S ∗ otherStaging c ∗ (∃ r, prngReg c r)) ⊢ phiWith c S := by
  unfold phiWith otherStaging
  iintro ⟨HS, ⟨R0, R1, R2, R3, R4, R5, R6, R7⟩, Hg⟩
  isplitl [HS R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS
  iexact Hg

/-! ## The body, case by case -/

set_option maxHeartbeats 4000000 in
/-- FIRST coordinate (reset, no emit): inputs at their blocks, the output handed back untouched, the accumulator at
    anything in and with the run's pieces written out. -/
noncomputable def runFirst (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : isFirst i) (hc1 : ¬isLast i)
    (x : Vec F S1024x256 .f32) (w : Vec F S2048x256 .bf16) (b : Vec F S1x2048 .f32) :
    Σ' (LO : List (View.Piece (Elt F) S1024x2048 .f32)), { LA : List (View.Piece (Elt F) S1024x2048 .f32) //
      ∀ (o : Vec F S1024x2048 .f32) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ (∃ d, owns (c : Thread nD τ) a7 fullShare d)
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LA)) -∗ K ⟨⟩))
          ⊢ wp frame (wpE (defs₀ (F := F)) Variants.none c none) E (cc1__matmul_kernel i a3 h3 a4 h4 a5 h5 a6 h6 a7 h7) K } := by
  refine ⟨[], ?_, fun o E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := h3.eq_unread hf0; obtain rfl := h4.eq_unread hf1; obtain rfl := h5.eq_unread hf2; obtain rfl := h6.eq_unread hf3
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HS

set_option maxHeartbeats 4000000 in
/-- MIDDLE coordinates (no reset, no emit): the accumulator comes in at what the point before left (`s`). -/
noncomputable def runMiddle (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : ¬isLast i)
    (x : Vec F S1024x256 .f32) (w : Vec F S2048x256 .bf16) (b : Vec F S1x2048 .f32) (s : Vec F S1024x2048 .f32) :
    Σ' (LO : List (View.Piece (Elt F) S1024x2048 .f32)), { LA : List (View.Piece (Elt F) S1024x2048 .f32) //
      ∀ (o : Vec F S1024x2048 .f32) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare s
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LA)) -∗ K ⟨⟩))
          ⊢ wp frame (wpE (defs₀ (F := F)) Variants.none c none) E (cc1__matmul_kernel i a3 h3 a4 h4 a5 h5 a6 h6 a7 h7) K } := by
  refine ⟨[], ?_, fun o E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h3.eq_unread hf0; obtain rfl := h4.eq_unread hf1; obtain rfl := h5.eq_unread hf2; obtain rfl := h6.eq_unread hf3
    obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HS

set_option maxHeartbeats 4000000 in
/-- LAST coordinate (no reset, emit): the accumulator comes in at `s`; the output goes in at anything and comes out
    with the run's pieces written. -/
noncomputable def runLast (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i)
    (x : Vec F S1024x256 .f32) (w : Vec F S2048x256 .bf16) (b : Vec F S1x2048 .f32) (s : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ d, owns (c : Thread nD τ) a6 fullShare d) ∗ owns (c : Thread nD τ) a7 fullShare s
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LA)) -∗ K ⟨⟩))
          ⊢ wp frame (wpE (defs₀ (F := F)) Variants.none c none) E (cc1__matmul_kernel i a3 h3 a4 h4 a5 h5 a6 h6 a7 h7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2
    obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.KernelIdeal.Frame

end
-- ==== Proof.MatmulRegion.lean ====
/-
  Region 1 of the kernel program, second part: the accumulation over the grid, the proof data, the obligation.

  Along the last grid axis the accumulator is a running sum: after the first coordinate it is zero plus the first
  block product, after each later coordinate what the point before left plus that point's block product; at the last
  coordinate the output block is the accumulator plus the bias row.  `accAt` states the accumulator after every point
  by recursion on the point (over the case runs' found pieces), `outAt` the output block at the emitting points, and
  the region's invariant before point n + 1 holds the accumulator at `accAt n`.  The obligation is then the case
  split first / middle / last, each closed by that case's run.
-/
import proofs.«144853_j39711267619209_1_alg».proof.Proof.MatmulCases

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the region reads -/

/-- Window `w`'s block at grid point `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block whenever the body runs, fetched at that point or not: where it
    is not fetched the block index has not moved (the bias row's block changes only every sixteenth point). -/
theorem mfound_0 {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)
theorem mfound_1 {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)
theorem mfound_2 {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

/-! ## What each case leaves -/

/-- The accumulator's pieces in the first case cover it. -/
theorem acover_first (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : isFirst i) (hc1 : ¬isLast i) (x : Vec F S1024x256 .f32) (w : Vec F S2048x256 .bf16) (b : Vec F S1x2048 .f32) (y : S1024x2048.Idx) :
    ∃ pc ∈ (runFirst c i a3 h3 a4 h4 a5 h5 a6 h6 a7 h7 hc0 hc1 x w b).2.1, y ∈ pc.1.set :=
  View.cover_of_tiledL (runFirst c i a3 h3 a4 h4 a5 h5 a6 h6 a7 h7 hc0 hc1 x w b).2.1 S1024x2048.size (by sl_kernel_rfl) y
/-- What the first case leaves in the accumulator. -/
def accFirst (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : isFirst i) (hc1 : ¬isLast i) (x : Vec F S1024x256 .f32) (w : Vec F S2048x256 .bf16) (b : Vec F S1x2048 .f32) : Vec F S1024x2048 .f32 :=
  accView.read (Elt F) (accView.writes (Elt F) accView.junk (runFirst c i a3 h3 a4 h4 a5 h5 a6 h6 a7 h7 hc0 hc1 x w b).2.1)

theorem acover_middle (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : ¬isLast i) (x : Vec F S1024x256 .f32) (w : Vec F S2048x256 .bf16) (b : Vec F S1x2048 .f32) (s : Vec F S1024x2048 .f32) (y : S1024x2048.Idx) :
    ∃ pc ∈ (runMiddle c i a3 h3 a4 h4 a5 h5 a6 h6 a7 h7 hc0 hc1 x w b s).2.1, y ∈ pc.1.set :=
  View.cover_of_tiledL (runMiddle c i a3 h3 a4 h4 a5 h5 a6 h6 a7 h7 hc0 hc1 x w b s).2.1 S1024x2048.size (by sl_kernel_rfl) y
/-- What a middle case leaves in the accumulator, over what the point before left (`s`). -/
def accMiddle (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : ¬isLast i) (x : Vec F S1024x256 .f32) (w : Vec F S2048x256 .bf16) (b : Vec F S1x2048 .f32) (s : Vec F S1024x2048 .f32) : Vec F S1024x2048 .f32 :=
  accView.read (Elt F) (accView.writes (Elt F) accView.junk (runMiddle c i a3 h3 a4 h4 a5 h5 a6 h6 a7 h7 hc0 hc1 x w b s).2.1)

theorem acover_last (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i) (x : Vec F S1024x256 .f32) (w : Vec F S2048x256 .bf16) (b : Vec F S1x2048 .f32) (s : Vec F S1024x2048 .f32) (y : S1024x2048.Idx) :
    ∃ pc ∈ (runLast c i a3 h3 a4 h4 a5 h5 a6 h6 a7 h7 hc0 hc1 x w b s).2.1, y ∈ pc.1.set :=
  View.cover_of_tiledL (runLast c i a3 h3 a4 h4 a5 h5 a6 h6 a7 h7 hc0 hc1 x w b s).2.1 S1024x2048.size (by sl_kernel_rfl) y
/-- What the last case leaves in the accumulator. -/
def accLast (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i) (x : Vec F S1024x256 .f32) (w : Vec F S2048x256 .bf16) (b : Vec F S1x2048 .f32) (s : Vec F S1024x2048 .f32) : Vec F S1024x2048 .f32 :=
  accView.read (Elt F) (accView.writes (Elt F) accView.junk (runLast c i a3 h3 a4 h4 a5 h5 a6 h6 a7 h7 hc0 hc1 x w b s).2.1)

/-- The output block's pieces in the last case cover it. -/
theorem ocover_last (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i) (x : Vec F S1024x256 .f32) (w : Vec F S2048x256 .bf16) (b : Vec F S1x2048 .f32) (s : Vec F S1024x2048 .f32) (y : S1024x2048.Idx) :
    ∃ pc ∈ (runLast c i a3 h3 a4 h4 a5 h5 a6 h6 a7 h7 hc0 hc1 x w b s).1, y ∈ pc.1.set :=
  View.cover_of_tiledL (runLast c i a3 h3 a4 h4 a5 h5 a6 h6 a7 h7 hc0 hc1 x w b s).1 S1024x2048.size (by sl_kernel_rfl) y
/-- What the last case leaves in the output block. -/
def outLast (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i) (x : Vec F S1024x256 .f32) (w : Vec F S2048x256 .bf16) (b : Vec F S1x2048 .f32) (s : Vec F S1024x2048 .f32) : Vec F S1024x2048 .f32 :=
  outView.read (Elt F) (outView.writes (Elt F) outView.junk (runLast c i a3 h3 a4 h4 a5 h5 a6 h6 a7 h7 hc0 hc1 x w b s).1)

/-! ## The accumulation over the grid -/

theorem notLast_of_first (t : Fin cfg1.N) (h0 : t.val % 16 = 0) : ¬isLast (grid1.coords t) :=
  fun h => by have := (isLast_iff t).mp h; omega
theorem notFirst_of (t : Fin cfg1.N) (h0 : ¬t.val % 16 = 0) : ¬isFirst (grid1.coords t) :=
  fun h => h0 ((isFirst_iff t).mp h)
theorem notLast_of (t : Fin cfg1.N) (h1 : ¬t.val % 16 = 15) : ¬isLast (grid1.coords t) :=
  fun h => h1 ((isLast_iff t).mp h)

/-- THE ACCUMULATOR after the body at position `n`: at a first coordinate the first case's contents; otherwise the
    middle or last case's, over what position `n - 1` left. -/
def accAt (c : Dev nD) : (n : ℕ) → n < cfg1.N → Vec F S1024x2048 .f32
  | 0, hn => accFirst c (grid1.coords ⟨0, hn⟩) (mx ⟨0, hn⟩) (hmx ⟨0, hn⟩) (mw ⟨0, hn⟩) (hmw ⟨0, hn⟩) (mb ⟨0, hn⟩) (hmb ⟨0, hn⟩) (mo ⟨0, hn⟩) (hmo ⟨0, hn⟩) accM (Memref.isWhole_whole _) ((isFirst_iff ⟨0, hn⟩).mpr (Nat.zero_mod _)) (notLast_of_first ⟨0, hn⟩ (Nat.zero_mod _)) (mblk V c 0 ⟨0, hn⟩) (mblk V c 1 ⟨0, hn⟩) (mblk V c 2 ⟨0, hn⟩)
  | n + 1, hn =>
    if h0 : (n + 1) % 16 = 0 then
      accFirst c (grid1.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) accM (Memref.isWhole_whole _) ((isFirst_iff ⟨n + 1, hn⟩).mpr h0) (notLast_of_first ⟨n + 1, hn⟩ h0) (mblk V c 0 ⟨n + 1, hn⟩) (mblk V c 1 ⟨n + 1, hn⟩) (mblk V c 2 ⟨n + 1, hn⟩)
    else
      if h1 : (n + 1) % 16 = 15 then
        accLast c (grid1.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) accM (Memref.isWhole_whole _) (notFirst_of ⟨n + 1, hn⟩ h0) ((isLast_iff ⟨n + 1, hn⟩).mpr h1) (mblk V c 0 ⟨n + 1, hn⟩) (mblk V c 1 ⟨n + 1, hn⟩) (mblk V c 2 ⟨n + 1, hn⟩) (accAt c n (Nat.lt_of_succ_lt hn))
      else
        accMiddle c (grid1.coords ⟨n + 1, hn⟩) (mx ⟨n + 1, hn⟩) (hmx ⟨n + 1, hn⟩) (mw ⟨n + 1, hn⟩) (hmw ⟨n + 1, hn⟩) (mb ⟨n + 1, hn⟩) (hmb ⟨n + 1, hn⟩) (mo ⟨n + 1, hn⟩) (hmo ⟨n + 1, hn⟩) accM (Memref.isWhole_whole _) (notFirst_of ⟨n + 1, hn⟩ h0) (notLast_of ⟨n + 1, hn⟩ h1) (mblk V c 0 ⟨n + 1, hn⟩) (mblk V c 1 ⟨n + 1, hn⟩) (mblk V c 2 ⟨n + 1, hn⟩) (accAt c n (Nat.lt_of_succ_lt hn))

theorem prev_lt (t : Fin cfg1.N) : t.val - 1 < cfg1.N := Nat.lt_of_le_of_lt (Nat.sub_le _ _) t.isLt

/-- `accAt` at a first coordinate. -/
theorem accAt_first (c : Dev nD) (t : Fin cfg1.N) (h0 : t.val % 16 = 0) :
    accAt V c t.val t.isLt = accFirst c (grid1.coords t) (mx t) (hmx t) (mw t) (hmw t) (mb t) (hmb t) (mo t) (hmo t) accM (Memref.isWhole_whole _) ((isFirst_iff t).mpr h0) (notLast_of_first t h0) (mblk V c 0 t) (mblk V c 1 t) (mblk V c 2 t) := by
  obtain ⟨n, hn⟩ := t
  cases n with
  | zero => exact rfl
  | succ n => exact (dif_pos h0).trans rfl

/-- `accAt` at a middle coordinate: over what the point before left. -/
theorem accAt_middle (c : Dev nD) (t : Fin cfg1.N) (h0 : ¬t.val % 16 = 0) (h1 : ¬t.val % 16 = 15) :
    accAt V c t.val t.isLt = accMiddle c (grid1.coords t) (mx t) (hmx t) (mw t) (hmw t) (mb t) (hmb t) (mo t) (hmo t) accM (Memref.isWhole_whole _) (notFirst_of t h0) (notLast_of t h1) (mblk V c 0 t) (mblk V c 1 t) (mblk V c 2 t) (accAt V c (t.val - 1) (prev_lt t)) := by
  obtain ⟨n, hn⟩ := t
  cases n with
  | zero => exact (by exfalso; (try dsimp only at h0); exact absurd (Nat.zero_mod _) h0)
  | succ n => exact (dif_neg h0).trans ((dif_neg h1).trans rfl)

/-- `accAt` at a last coordinate: over what the point before left. -/
theorem accAt_last (c : Dev nD) (t : Fin cfg1.N) (h0 : ¬t.val % 16 = 0) (h1 : t.val % 16 = 15) :
    accAt V c t.val t.isLt = accLast c (grid1.coords t) (mx t) (hmx t) (mw t) (hmw t) (mb t) (hmb t) (mo t) (hmo t) accM (Memref.isWhole_whole _) (notFirst_of t h0) ((isLast_iff t).mpr h1) (mblk V c 0 t) (mblk V c 1 t) (mblk V c 2 t) (accAt V c (t.val - 1) (prev_lt t)) := by
  obtain ⟨n, hn⟩ := t
  cases n with
  | zero => exact (by exfalso; (try dsimp only at h0); exact absurd (Nat.zero_mod _) h0)
  | succ n => exact (dif_neg h0).trans ((dif_pos h1).trans rfl)

/-- THE OUTPUT BLOCK after the body at point `t`: at a last coordinate the last case's contents over what the point
    before left in the accumulator; elsewhere the window is idle and this is never consulted. -/
def outAt (c : Dev nD) (t : Fin cfg1.N) : Vec F S1024x2048 .f32 :=
  if h1 : t.val % 16 = 15 then
    outLast c (grid1.coords t) (mx t) (hmx t) (mw t) (hmw t) (mb t) (hmb t) (mo t) (hmo t) accM (Memref.isWhole_whole _) (notFirst_of t (by omega)) ((isLast_iff t).mpr h1) (mblk V c 0 t) (mblk V c 1 t) (mblk V c 2 t) (accAt V c (t.val - 1) (prev_lt t))
  else outView.read (Elt F) outView.junk

theorem outAt_last (c : Dev nD) (t : Fin cfg1.N) (h0 : ¬t.val % 16 = 0) (h1 : t.val % 16 = 15) :
    outAt V c t = outLast c (grid1.coords t) (mx t) (hmx t) (mw t) (hmw t) (mb t) (hmb t) (mo t) (hmo t) accM (Memref.isWhole_whole _) (notFirst_of t h0) ((isLast_iff t).mpr h1) (mblk V c 0 t) (mblk V c 1 t) (mblk V c 2 t) (accAt V c (t.val - 1) (prev_lt t)) := by
  unfold outAt; rw [dif_pos h1]

/-! ## The invariant, point by point -/

/-- Before the first point: the accumulator at anything.  Before point n + 1: the accumulator at `accAt n`.  The
    generator register rides along at some state. -/
def phiAt (c : Dev nD) : (n : ℕ) → n ≤ cfg1.N → sProp 𝕄
  | 0, _ => Pipeline.ΦA spec1 c
  | n + 1, hn => phiWith c (owns (c : Thread nD τ) accM fullShare (accAt V c n hn))

theorem phiAt_zero (c : Dev nD) (n : ℕ) (h : n ≤ cfg1.N) (hz : n = 0) : phiAt V c n h = Pipeline.ΦA spec1 c := by
  subst hz; rfl

theorem phiAt_succ (c : Dev nD) (n : ℕ) (hn : n < cfg1.N) :
    phiAt V c (n + 1) hn = phiWith c (owns (c : Thread nD τ) accM fullShare (accAt V c n hn)) := rfl

theorem phiAt_pos (c : Dev nD) (n : ℕ) (h : n ≤ cfg1.N) (hz : n ≠ 0) :
    phiAt V c n h = phiWith c (owns (c : Thread nD τ) accM fullShare (accAt V c (n - 1) (by omega))) := by
  cases n with
  | zero => exact absurd rfl hz
  | succ n => rfl

/-! ## The region's proof data -/

/-- Region 1 on core `c`: the arrays as the region finds them; after each point the three input buffers at their
    blocks and the output buffer at `outAt`; the invariant `phiAt`; nothing owed. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => outAt V c t
  Φ t := phiAt V c t.val (Nat.le_of_lt_succ t.isLt)
  q _ := fullShare
  owed _ := 0

theorem mdat_A (c : Dev nD) (w : Fin cfg1.W) : (mdat V c).A w = V c (Pipeline.arrRef spec1 w) := by
  dsimp only [mdat]

theorem mphi_castSucc (c : Dev nD) (t : Fin cfg1.N) :
    (mdat V c).Φ t.castSucc = phiAt V c t.val (Nat.le_of_lt t.isLt) := by
  dsimp only [mdat]; simp only [Fin.coe_castSucc]

theorem mafter_0 (c : Dev nD) (t : Fin cfg1.N) : (mdat V c).after 0 t = mblk V c 0 t := by dsimp only [mdat]
theorem mafter_1 (c : Dev nD) (t : Fin cfg1.N) : (mdat V c).after 1 t = mblk V c 1 t := by dsimp only [mdat]
theorem mafter_2 (c : Dev nD) (t : Fin cfg1.N) : (mdat V c).after 2 t = mblk V c 2 t := by dsimp only [mdat]
theorem mafter_3 (c : Dev nD) (t : Fin cfg1.N) : (mdat V c).after 3 t = outAt V c t := by dsimp only [mdat]

theorem mbefore_0 (c : Dev nD) (t : Fin cfg1.N) (d) : (mdat V c).before 0 t d = mblk V c 0 t :=
  mfound_0 V (mdat V c) (mdat_A V c 0) (mafter_0 V c) t d
theorem mbefore_1 (c : Dev nD) (t : Fin cfg1.N) (d) : (mdat V c).before 1 t d = mblk V c 1 t :=
  mfound_1 V (mdat V c) (mdat_A V c 1) (mafter_1 V c) t d
theorem mbefore_2 (c : Dev nD) (t : Fin cfg1.N) (d) : (mdat V c).before 2 t d = mblk V c 2 t :=
  mfound_2 V (mdat V c) (mdat_A V c 2) (mafter_2 V c) t d

/-! ## The obligation at every point -/

def mpre (c : Dev nD) (t : Fin cfg1.N) : sProp 𝕄 :=
  iprop((mdat V c).Φ t.castSucc ∗ (mdat V c).owesAt () t.castSucc
    ∗ (∃ d, owns (c : Thread nD τ) (mx t) fullShare ((mdat V c).before 0 t d))
    ∗ (∃ d, owns (c : Thread nD τ) (mw t) fullShare ((mdat V c).before 1 t d))
    ∗ (∃ d, owns (c : Thread nD τ) (mb t) fullShare ((mdat V c).before 2 t d))
    ∗ (∃ d, owns (c : Thread nD τ) (mo t) fullShare ((mdat V c).before 3 t d)))

def mpost (c : Dev nD) (t : Fin cfg1.N) : sProp 𝕄 :=
  iprop((mdat V c).Φ t.succ ∗ (mdat V c).owesAt () t.succ
    ∗ (mdat V c).leavesExact 0 t
    ∗ (mdat V c).leavesExact 1 t
    ∗ (mdat V c).leavesExact 2 t
    ∗ (mdat V c).leavesExact 3 t)

theorem mleaves_0 (c : Dev nD) (t : Fin cfg1.N) :
    (mdat V c).leavesExact 0 t = owns (c : Thread nD τ) (mx t) fullShare (mblk V c 0 t) := by
  unfold Dat.leavesExact; rw [live_x t, mafter_0]
theorem mleaves_1 (c : Dev nD) (t : Fin cfg1.N) :
    (mdat V c).leavesExact 1 t = owns (c : Thread nD τ) (mw t) fullShare (mblk V c 1 t) := by
  unfold Dat.leavesExact; rw [live_w t, mafter_1]
theorem mleaves_2 (c : Dev nD) (t : Fin cfg1.N) :
    (mdat V c).leavesExact 2 t = owns (c : Thread nD τ) (mb t) fullShare (mblk V c 2 t) := by
  unfold Dat.leavesExact; rw [live_b t, mafter_2]

set_option maxHeartbeats 4800000 in
/-- The body at any point.  The closed forms say which case the point is in; the invariant hands the body the
    accumulator at what the point before left (at anything before the very first point) and takes it back at this
    point's contents; where the output window is idle its buffer goes back as it came. -/
theorem msound (c : Dev nD) (t : Fin cfg1.N) :
    mpre V c t ⊢ wp frame (wpE (defs₀ (F := F)) Variants.none c none) Set.univ (bodyAt1 t) (fun _ => mpost V c t) := by
  unfold mpre mpost bodyAt1
  simp only [mbefore_0, mbefore_1, mbefore_2]
  rw [show (mdat V c).owesAt () t.succ = (mdat V c).owesAt () t.castSucc from rfl]
  rw [show (mdat V c).Φ t.succ = phiAt V c (t.val + 1) t.isLt from rfl, phiAt_succ]
  rw [mleaves_0, mleaves_1, mleaves_2]
  have hN : t.val < 1024 := lt_of_lt_of_eq t.isLt (show cfg1.N = 1024 from N_1)
  by_cases h0 : t.val % 16 = 0
  · -- first coordinate
    have h1 : ¬t.val % 16 = 15 := by omega
    rw [Dat.leavesExact_idle (mdat V c) 3 t (idle_out t (notLast_of t h1)) (noflush_out t (notLast_of t h1))]
    rw [accAt_first V c t h0]
    unfold accFirst; (try dsimp only)
    by_cases hz : t.val = 0
    · rw [mphi_castSucc V c t, phiAt_zero V c _ _ hz, phiA_eq]
      iintro ⟨HΦ, Ho, ⟨%d0, H0⟩, ⟨%d1, H1⟩, ⟨%d2, H2⟩, ⟨%d3, H3⟩⟩
      ihave HΦ' := (phiWith_out c _) $$ HΦ
      icases HΦ' with ⟨HS, Hg⟩
      iapply ((runFirst c (grid1.coords t) _ _ _ _ _ _ _ _ _ _ ((isFirst_iff t).mpr h0) (notLast_of_first t h0) (mblk V c 0 t) (mblk V c 1 t) (mblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · iapply (phiWith_in c _)
        isplitl [HS]
        · unfold owns; iexists _; isplitr
          swap; · iexact HS
          ipureintro; exact View.read_writes_of_cover _ _ _ _ _ (acover_first c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [mphi_castSucc V c t, phiAt_pos V c _ _ hz]
      iintro ⟨HΦ, Ho, ⟨%d0, H0⟩, ⟨%d1, H1⟩, ⟨%d2, H2⟩, ⟨%d3, H3⟩⟩
      ihave HΦ' := (phiWith_out c _) $$ HΦ
      icases HΦ' with ⟨HS, Hg⟩
      iapply ((runFirst c (grid1.coords t) _ _ _ _ _ _ _ _ _ _ ((isFirst_iff t).mpr h0) (notLast_of_first t h0) (mblk V c 0 t) (mblk V c 1 t) (mblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · iapply (phiWith_in c _)
        isplitl [HS]
        · unfold owns; iexists _; isplitr
          swap; · iexact HS
          ipureintro; exact View.read_writes_of_cover _ _ _ _ _ (acover_first c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · -- last coordinate
      rw [show (mdat V c).leavesExact 3 t = owns (c : Thread nD τ) (mo t) fullShare ((mdat V c).after 3 t) from by
        unfold Dat.leavesExact; rw [live_out t ((isLast_iff t).mpr h1)], mafter_3]
      rw [accAt_last V c t h0 h1, outAt_last V c t h0 h1]
      unfold accLast outLast; (try dsimp only)
      rw [mphi_castSucc V c t, phiAt_pos V c _ _ hz]
      iintro ⟨HΦ, Ho, ⟨%d0, H0⟩, ⟨%d1, H1⟩, ⟨%d2, H2⟩, ⟨%d3, H3⟩⟩
      ihave HΦ' := (phiWith_out c _) $$ HΦ
      icases HΦ' with ⟨HS, Hg⟩
      iapply ((runLast c (grid1.coords t) _ _ _ _ _ _ _ _ _ _ (notFirst_of t h0) ((isLast_iff t).mpr h1) (mblk V c 0 t) (mblk V c 1 t) (mblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hg]
      · iapply (phiWith_in c _)
        isplitl [HS]
        · unfold owns; iexists _; isplitr
          swap; · iexact HS
          ipureintro; exact View.read_writes_of_cover _ _ _ _ _ (acover_last c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · -- a middle coordinate
      rw [Dat.leavesExact_idle (mdat V c) 3 t (idle_out t (notLast_of t h1)) (noflush_out t (notLast_of t h1))]
      rw [accAt_middle V c t h0 h1]
      unfold accMiddle; (try dsimp only)
      rw [mphi_castSucc V c t, phiAt_pos V c _ _ hz]
      iintro ⟨HΦ, Ho, ⟨%d0, H0⟩, ⟨%d1, H1⟩, ⟨%d2, H2⟩, ⟨%d3, H3⟩⟩
      ihave HΦ' := (phiWith_out c _) $$ HΦ
      icases HΦ' with ⟨HS, Hg⟩
      iapply ((runMiddle c (grid1.coords t) _ _ _ _ _ _ _ _ _ _ (notFirst_of t h0) (notLast_of t h1) (mblk V c 0 t) (mblk V c 1 t) (mblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · iapply (phiWith_in c _)
        isplitl [HS]
        · unfold owns; iexists _; isplitr
          swap; · iexact HS
          ipureintro; exact View.read_writes_of_cover _ _ _ _ _ (acover_middle c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of region 1, at every point. -/
theorem mobligation (c : Dev nD) : BodyObligation (mdat (F := F) V c) (defs₀ (F := F)) Variants.none () Set.univ := fun t => by
  rw [bigSep_W1, bigSep_W1]
  exact msound V c t

/-- What the region is entered with is the invariant before the first point. -/
theorem mphi_in (c : Dev nD) : Pipeline.ΦA spec1 c ⊢ (mdat V c).Φ 0 := by
  rw [show (mdat V c).Φ 0 = phiAt V c 0 (Nat.zero_le _) from rfl, phiAt_zero V c 0 _ rfl]
  try exact Idealize.SL.BI.Entails.refl _

/-- After the last point the invariant gives the accumulator back at contents no longer named. -/
theorem mphi_out (c : Dev nD) : (mdat V c).Φ (Fin.last cfg1.N) ⊢ Pipeline.ΦA spec1 c := by
  have ht : (Fin.last cfg1.N).val ≠ 0 := by rw [Fin.val_last]; have : cfg1.N = 1024 := N_1; omega
  rw [show (mdat V c).Φ (Fin.last cfg1.N) = phiAt V c (Fin.last cfg1.N).val (Nat.le_of_lt_succ (Fin.last cfg1.N).isLt) from rfl,
    phiAt_pos V c _ _ ht, phiA_eq]
  iintro HΦ
  ihave HΦ' := (phiWith_out c _) $$ HΦ
  icases HΦ' with ⟨HS, Hg⟩
  iapply (phiWith_in c _)
  isplitl [HS]
  · iexists _; iexact HS
  iexact Hg

end Cert.KernelIdeal.Frame

end
-- ==== Proof.KernelRun.lean ====
/-
  The kernel program's run, from launch to return.

  @main is: region 0 (the weight sample), a stretch of five host operations (the bias sample, reshaped to one row),
  region 1 (the blocked product plus bias).  The buffer contents at the four boundaries are a fold from the launch
  memory: `E0` at launch; `E1` after region 0, which changes only its output array, to what its write-backs leave;
  `E2` after the host stretch; `E3` after region 1, likewise.  Every argument array is read back through the fold to
  its launch contents, and the result array at the end is region 1's output array after its last write-back.  The
  run itself is the several-regions launch over the two regions' segment records.
-/
import proofs.«144853_j39711267619209_1_alg».proof.Proof.WeightRegion
import proofs.«144853_j39711267619209_1_alg».proof.Proof.MatmulRegion
import proofs.«144853_j39711267619209_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev E0 : Dev nD → Valuation τ sig (Elt F) := fun c b => (s₀ m ρ).mem ((c : Dev nD), b)
/-- The same read at the TensorCore's references: what region 0 is entered with. -/
abbrev B0 : (c : Dev nD) → (b : Ref sig .tc) → Buf (Elt F) ((c : Thread nD τ).loc b) := fun c b => E0 m ρ c b
/-- After region 0: its arrays at what the pipeline leaves, every other buffer as before. -/
def E1 (c : Dev nD) : Valuation τ sig (Elt F) :=
  Pipeline.withArrays spec0 c (E0 m ρ c) fun w => (wdat (B0 m ρ) c).arrAt w cfg0.N
theorem E1_arr (c : Dev nD) (w : Fin cfg0.W) :
    E1 m ρ c (Proc.devRef .tc (Pipeline.arrRef spec0 w)) = (wdat (B0 m ρ) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
abbrev B1 : (c : Dev nD) → (b : Ref sig .tc) → Buf (Elt F) ((c : Thread nD τ).loc b) := fun c b => E1 m ρ c b
theorem hF0 (c : Dev nD) (w : Fin cfg0.W) : (wdat (B0 m ρ) c).arrAt w cfg0.N = B1 m ρ c (Pipeline.arrRef spec0 w) :=
  (E1_arr m ρ c w).symm
theorem hrest0 (c : Dev nD) : ∀ b, b ∉ Finset.univ.image (Pipeline.arrRef spec0) → B1 m ρ c b = B0 m ρ c b :=
  fun b hb => E1_of_ne m ρ c b fun w e => hb (Finset.mem_image.mpr ⟨w, Finset.mem_univ _, e⟩)

/-- After the host stretch (region 1's entry). -/
abbrev E2 : Dev nD → Valuation τ sig (Elt F) := fun c => StableHlo.after hostOps1 (E1 m ρ c)
abbrev B2 : (c : Dev nD) → (b : Ref sig .tc) → Buf (Elt F) ((c : Thread nD τ).loc b) := fun c b => E2 m ρ c b
/-- After region 1. -/
def E3 (c : Dev nD) : Valuation τ sig (Elt F) :=
  Pipeline.withArrays spec1 c (E2 m ρ c) fun w => (mdat (B2 m ρ) c).arrAt w cfg1.N
theorem E3_arr (c : Dev nD) (w : Fin cfg1.W) :
    E3 m ρ c (Proc.devRef .tc (Pipeline.arrRef spec1 w)) = (mdat (B2 m ρ) c).arrAt w cfg1.N := by
  unfold E3; exact Pipeline.withArrays_arr spec1 launch1.win.arr_inj c _ _ w
theorem E3_of_ne (c : Dev nD) (b : Ref sig .tc) (hb : ∀ w, Pipeline.arrRef spec1 w ≠ b) :
    E3 m ρ c (Proc.devRef .tc b) = E2 m ρ c (Proc.devRef .tc b) := by
  unfold E3; exact Pipeline.withArrays_of_ne spec1 c _ _ b hb
abbrev B3 : (c : Dev nD) → (b : Ref sig .tc) → Buf (Elt F) ((c : Thread nD τ).loc b) := fun c b => E3 m ρ c b
theorem hF1 (c : Dev nD) (w : Fin cfg1.W) : (mdat (B2 m ρ) c).arrAt w cfg1.N = B3 m ρ c (Pipeline.arrRef spec1 w) :=
  (E3_arr m ρ c w).symm
theorem hrest1 (c : Dev nD) : ∀ b, b ∉ Finset.univ.image (Pipeline.arrRef spec1) → B3 m ρ c b = B2 m ρ c b :=
  fun b hb => E3_of_ne m ρ c b fun w e => hb (Finset.mem_image.mpr ⟨w, Finset.mem_univ _, e⟩)

/-! ## The arguments end as launched -/

/-- `main_arg0` (the activations): region 1 reads it through its first window, the host stretch does not write it, region 0
    does not see it. -/
theorem E3_main_arg0 (c : Dev nD) : E3 m ρ c (Proc.devRef .tc main_arg0) = m ((c : Thread nD τ).loc main_arg0) :=
  calc E3 m ρ c (Proc.devRef .tc main_arg0)
    _ = E2 m ρ c (Proc.devRef .tc main_arg0) := (E3_arr m ρ c 0).trans (((mdat (B2 m ρ) c).arrAt_in 0 rfl _).trans (mdat_A (B2 m ρ) c 0))
    _ = E1 m ρ c (Proc.devRef .tc main_arg0) := StableHlo.after_of_writes_sub hostOps1 _ hostOps1_writes (r := main_arg0) (by decide)
    _ = E0 m ρ c (Proc.devRef .tc main_arg0) := E1_of_ne m ρ c main_arg0 (by decide)
    _ = m ((c : Thread nD τ).loc main_arg0) := rfl

/-- `main_arg1`: region 0 reads it through window 0; nothing after writes it. -/
theorem E3_main_arg1 (c : Dev nD) : E3 m ρ c (Proc.devRef .tc main_arg1) = m ((c : Thread nD τ).loc main_arg1) :=
  calc E3 m ρ c (Proc.devRef .tc main_arg1)
    _ = E2 m ρ c (Proc.devRef .tc main_arg1) := E3_of_ne m ρ c main_arg1 (by decide)
    _ = E1 m ρ c (Proc.devRef .tc main_arg1) := StableHlo.after_of_writes_sub hostOps1 _ hostOps1_writes (r := main_arg1) (by decide)
    _ = E0 m ρ c (Proc.devRef .tc main_arg1) := (E1_arr m ρ c 0).trans (((wdat (B0 m ρ) c).arrAt_in 0 rfl _).trans (wdat_A (B0 m ρ) c 0))
    _ = m ((c : Thread nD τ).loc main_arg1) := rfl

/-- `main_arg2`: region 0 reads it through window 1; nothing after writes it. -/
theorem E3_main_arg2 (c : Dev nD) : E3 m ρ c (Proc.devRef .tc main_arg2) = m ((c : Thread nD τ).loc main_arg2) :=
  calc E3 m ρ c (Proc.devRef .tc main_arg2)
    _ = E2 m ρ c (Proc.devRef .tc main_arg2) := E3_of_ne m ρ c main_arg2 (by decide)
    _ = E1 m ρ c (Proc.devRef .tc main_arg2) := StableHlo.after_of_writes_sub hostOps1 _ hostOps1_writes (r := main_arg2) (by decide)
    _ = E0 m ρ c (Proc.devRef .tc main_arg2) := (E1_arr m ρ c 1).trans (((wdat (B0 m ρ) c).arrAt_in 1 rfl _).trans (wdat_A (B0 m ρ) c 1))
    _ = m ((c : Thread nD τ).loc main_arg2) := rfl

/-- `main_arg3`: region 0 reads it through window 2; nothing after writes it. -/
theorem E3_main_arg3 (c : Dev nD) : E3 m ρ c (Proc.devRef .tc main_arg3) = m ((c : Thread nD τ).loc main_arg3) :=
  calc E3 m ρ c (Proc.devRef .tc main_arg3)
    _ = E2 m ρ c (Proc.devRef .tc main_arg3) := E3_of_ne m ρ c main_arg3 (by decide)
    _ = E1 m ρ c (Proc.devRef .tc main_arg3) := StableHlo.after_of_writes_sub hostOps1 _ hostOps1_writes (r := main_arg3) (by decide)
    _ = E0 m ρ c (Proc.devRef .tc main_arg3) := (E1_arr m ρ c 2).trans (((wdat (B0 m ρ) c).arrAt_in 2 rfl _).trans (wdat_A (B0 m ρ) c 2))
    _ = m ((c : Thread nD τ).loc main_arg3) := rfl

/-- `main_arg4` (a bias parameter): only the host stretch reads it. -/
theorem E3_main_arg4 (c : Dev nD) : E3 m ρ c (Proc.devRef .tc main_arg4) = m ((c : Thread nD τ).loc main_arg4) :=
  calc E3 m ρ c (Proc.devRef .tc main_arg4)
    _ = E2 m ρ c (Proc.devRef .tc main_arg4) := E3_of_ne m ρ c main_arg4 (by decide)
    _ = E1 m ρ c (Proc.devRef .tc main_arg4) := StableHlo.after_of_writes_sub hostOps1 _ hostOps1_writes (r := main_arg4) (by decide)
    _ = E0 m ρ c (Proc.devRef .tc main_arg4) := E1_of_ne m ρ c main_arg4 (by decide)
    _ = m ((c : Thread nD τ).loc main_arg4) := rfl

/-- `main_arg5` (a bias parameter): only the host stretch reads it. -/
theorem E3_main_arg5 (c : Dev nD) : E3 m ρ c (Proc.devRef .tc main_arg5) = m ((c : Thread nD τ).loc main_arg5) :=
  calc E3 m ρ c (Proc.devRef .tc main_arg5)
    _ = E2 m ρ c (Proc.devRef .tc main_arg5) := E3_of_ne m ρ c main_arg5 (by decide)
    _ = E1 m ρ c (Proc.devRef .tc main_arg5) := StableHlo.after_of_writes_sub hostOps1 _ hostOps1_writes (r := main_arg5) (by decide)
    _ = E0 m ρ c (Proc.devRef .tc main_arg5) := E1_of_ne m ρ c main_arg5 (by decide)
    _ = m ((c : Thread nD τ).loc main_arg5) := rfl

/-- `main_arg6` (a bias parameter): only the host stretch reads it. -/
theorem E3_main_arg6 (c : Dev nD) : E3 m ρ c (Proc.devRef .tc main_arg6) = m ((c : Thread nD τ).loc main_arg6) :=
  calc E3 m ρ c (Proc.devRef .tc main_arg6)
    _ = E2 m ρ c (Proc.devRef .tc main_arg6) := E3_of_ne m ρ c main_arg6 (by decide)
    _ = E1 m ρ c (Proc.devRef .tc main_arg6) := StableHlo.after_of_writes_sub hostOps1 _ hostOps1_writes (r := main_arg6) (by decide)
    _ = E0 m ρ c (Proc.devRef .tc main_arg6) := E1_of_ne m ρ c main_arg6 (by decide)
    _ = m ((c : Thread nD τ).loc main_arg6) := rfl

/-- The result array at the end: region 1's output array after its last write-back. -/
theorem E3_main_v6 (c : Dev nD) : E3 m ρ c (Proc.devRef .tc main_v6) = (mdat (B2 m ρ) c).arrAt 3 cfg1.N :=
  E3_arr m ρ c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => wdat (B0 m ρ) c
  | ⟨1, _⟩ => fun c => mdat (B2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `E3`, the generator register at some state. -/
abbrev Tₙ (c : Dev nD) : sProp 𝕄 := iprop(StableHlo.held (c : Thread nD τ) (Pipeline.ucRefs τ sig) (E3 m ρ c) ∗ ∃ r, prngReg c r)

/-! ## The regions as segments -/

set_option backward.isDefEq.respectTransparency.types false in
/-- Region 0 as a segment: entered with every unscoped buffer at `E0`, left with them at `E1`.  Its arrays are
    split out of the unscoped buffers on the way in and put back at their final contents on the way out; the generator
    register passes through the invariant; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (wobligation (B0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (E1 m ρ c) ∗ R c)
  X c := iprop(∃ r, prngReg c r)
  Y c := iprop(∃ r, prngReg c r)
  Z c := Pipeline.unscopedRest (Ix := Unit) (Name := ℕ) (U := UR sig nD τ) (Lvl := ℕ) spec0 c (B0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B0 m ρ c) (B1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `E2`, left with them at `E3`.  Its arrays are
    split out of the unscoped buffers on the way in and put back at their final contents on the way out; the generator
    register passes through the invariant; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mobligation (B2 m ρ) c).loose
  hwaits := Pipeline.hwaits_of_owed_zero _ _ _ _ L lv 1 fun _ _ => rfl
  pre c := iprop(StableHlo.held (c : Thread nD τ) (Pipeline.ucRefs τ sig) (E2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h1.trans (mphi_in (B2 m ρ) c)
  hout c := by
    rw [Pipeline.ownSems0_none]
    have h1 : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (mphi_out (B2 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B2 m ρ c) (B3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (E1 m ρ)),
    .region (reg1 m ρ) ]
theorem main_run (c : Dev nD) : main (F := F) c = Pipeline.Seg.run (segs m ρ) := (main_chain c).trans (by chain_rfl)

set_option backward.isDefEq.respectTransparency.types false in
/-- THE RUN.  From any memory with zero counters, every weakly fair execution of @main terminates without a fault, the
    result array ends at region 1's output array after its last write-back, and every argument array ends as launched. -/
theorem kernel_run : θ_run defs (onTc (τ := τ) (main (F := F))) ⟨m, fun _ => 0, ρ⟩ (fun r => ∀ c : Dev nD,
      r.2.mem ((c.tc : Thread nD τ).loc main_v6) = (mdat (B2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m ρ c b)
    (hfin := fun c s' => by
      iintro ⟨⟨Hh, -⟩, HSI⟩
      unfold StableHlo.held
      imodintro
      iapply (pointsTo_read_all (Pipeline.ucRefs τ sig) (fun b => (((c : Thread nD τ)).1, b)) (E3 m ρ c) s')
      isplitl [Hh] <;> iassumption)
    (hQ := fun s h c =>
      ⟨(h c _ (mem_uc main_v6 (by decide))).trans (E3_main_v6 m ρ c),
       (h c _ (mem_uc main_arg0 (by decide))).trans (E3_main_arg0 m ρ c),
       (h c _ (mem_uc main_arg1 (by decide))).trans (E3_main_arg1 m ρ c),
       (h c _ (mem_uc main_arg2 (by decide))).trans (E3_main_arg2 m ρ c),
       (h c _ (mem_uc main_arg3 (by decide))).trans (E3_main_arg3 m ρ c),
       (h c _ (mem_uc main_arg4 (by decide))).trans (E3_main_arg4 m ρ c),
       (h c _ (mem_uc main_arg5 (by decide))).trans (E3_main_arg5 m ρ c),
       (h c _ (mem_uc main_arg6 (by decide))).trans (E3_main_arg6 m ρ c)⟩)

end Cert.KernelIdeal.Frame

end
-- ==== Proof.WeightValue.lean ====
/-
  Region 0's result as one function of its three input arrays.

  All four windows of the first pallas_call move together: at grid point `t` each selects the same 512 × 1024 block of a
  16384 × 4096 array.  So what point `t` writes back is block `t` of the whole-array function
  `mean + log1p (exp rho) * noise` (narrowed to the output's element type), the 32 × 4 output blocks tile the array, and the
  array after the region is that function of the three input arrays, index by index.
-/
import proofs.«144853_j39711267619209_1_alg».proof.Proof.WeightRegion
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero_off : (![0, 0] : Fin 2 → Nat) = fun _ => 0 := funext fun a => by fin_cases a <;> rfl

/-- The weight sample, entry by entry. -/
abbrev wsample (mu rho eps : S16384x4096.Idx → Elt F .f32) : S16384x4096.Idx → Elt F .bf16 :=
  fun i => FloatOps.truncf .bf16 bitsLt_bf16_f32 (FloatOps.addf (mu i) (FloatOps.mulf (FloatOps.log1p (FloatOps.exp (rho i))) (eps i)))

/-- The body's one stored value is that expression of its three loaded blocks, entry by entry. -/
theorem wpay_eq (x0 x1 x2 : Vec F S512x1024 .f32) :
    k0_pay1 x0 x1 x2 = fun j => FloatOps.truncf .bf16 bitsLt_bf16_f32 (FloatOps.addf (x0 j) (FloatOps.mulf (FloatOps.log1p (FloatOps.exp (x1 j))) (x2 j))) := rfl

/-- The four index maps agree at every grid point, and the block indices stay in range. -/
theorem widx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every block of the 32 × 4 tiling is some point's. -/
theorem widx_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- What point `t` writes back is block `t` of the weight sample of the input arrays as the region finds them. -/
theorem wflushed (c : Dev nD) (t : Fin cfg0.N) :
    (wdat V c).flushed 3 t = ((cfg0.win 3).blk t).view.read (Elt F) (wsample (V c main_arg1) (V c main_arg2) (V c main_arg3)) := by
  show (cfg0.win 3).cut (grid0.coords t) ((wdat V c).after 3 t) = _
  rw [wafter_3]
  unfold wout
  rw [View.canon_unit_zero zero_off]
  simp only [View.ld_unit_zero (S := S512x1024) zero_off]
  rw [wpay_eq]
  obtain ⟨e0, e1, e2, e3, e4, e5, e6, e7⟩ := widx_facts t
  funext j
  show FloatOps.truncf .bf16 bitsLt_bf16_f32 (FloatOps.addf (V c main_arg1 (((cfg0.win 0).blk t).view.emb j)) (FloatOps.mulf (FloatOps.log1p (FloatOps.exp (V c main_arg2 (((cfg0.win 1).blk t).view.emb j)))) (V c main_arg3 (((cfg0.win 2).blk t).view.emb j))))
    = FloatOps.truncf .bf16 bitsLt_bf16_f32 (FloatOps.addf (V c main_arg1 (((cfg0.win 3).blk t).view.emb j)) (FloatOps.mulf (FloatOps.log1p (FloatOps.exp (V c main_arg2 (((cfg0.win 3).blk t).view.emb j)))) (V c main_arg3 (((cfg0.win 3).blk t).view.emb j))))
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * (j 1).val = win0_3.index t (1 : Fin 2) * 1024 + 1 * (j 1).val; omega
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 1024 + 1 * (j 1).val = win0_3.index t (1 : Fin 2) * 1024 + 1 * (j 1).val; omega
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; omega
    | ⟨1, _⟩ => show win0_2.index t (1 : Fin 2) * 1024 + 1 * (j 1).val = win0_3.index t (1 : Fin 2) * 1024 + 1 * (j 1).val; omega
  rw [h0, h1, h2]

/-- An index of the array lies in point `t`'s block iff each coordinate lies in the block's range on its axis. -/
theorem wmem_blk (t : Fin cfg0.N) (i : S16384x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- The output blocks tile the array: row `r`, column `s` is in the block with indices `r / 512`, `s / 1024`. -/
theorem wcover_all (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := widx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [wmem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after region 0: the weight sample of the three input arrays as the region finds them. -/
theorem wfinal (c : Dev nD) :
    (wdat V c).arrAt 3 cfg0.N = wsample (V c main_arg1) (V c main_arg2) (V c main_arg3) :=
  (wdat V c).arrAt_eq_of_cover 3 _ (fun t _ => wflushed V c t) wcover_all

end Cert.KernelIdeal.Frame

end
-- ==== Proof.MatmulPieces.lean ====
/-
  Region 1's case contents as arithmetic on the blocks.

  The body's runs leave the accumulator and the output block as lists of whole-block stores.  Read back, a list whose
  last store covers the block is that store's value, and a load of what one whole-block store left is that store's value.
  So: after a first coordinate the accumulator is the update applied to the zero fill; after any other coordinate it is the
  update applied to what the point before left; and at a last coordinate the output block is the emit applied to the
  updated accumulator and the bias row.  (Update and emit are the skeleton's second and third stored values.)
-/
import proofs.«144853_j39711267619209_1_alg».proof.Proof.MatmulRegion
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zoff : (![0, 0] : Fin 2 → Nat) = fun _ => 0 := funext fun a => by fin_cases a <;> rfl

/-- A middle coordinate: the accumulator becomes the update of what it held. -/
theorem accMiddle_eq (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : ¬isLast i)
    (x : Vec F S1024x256 .f32) (w : Vec F S2048x256 .bf16) (b : Vec F S1x2048 .f32) (s : Vec F S1024x2048 .f32) :
    accMiddle c i a3 h3 a4 h4 a5 h5 a6 h6 a7 h7 hc0 hc1 x w b s = k1_pay2 x s w := by
  unfold accMiddle
  rw [View.read_writes_eq_canon _ _ _ (acover_middle c i a3 h3 a4 h4 a5 h5 a6 h6 a7 h7 hc0 hc1 x w b s)]
  unfold runMiddle
  dsimp only
  sl_unfold_words
  rw [View.canon_unit_zero zoff]
  simp only [View.readAt_eq_ld, h3.read_unread, h4.read_unread, h5.read_unread, h7.read_unread,
    View.readCov_unit_zero (S := S1024x2048) _ zoff,
    View.ld_unit_zero (S := S1024x256) zoff, View.ld_unit_zero (S := S2048x256) zoff, View.ld_unit_zero (S := S1x2048) zoff,
    View.ld_unit_zero (S := S1024x2048) zoff]

/-- A last coordinate: the same update. -/
theorem accLast_eq (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i)
    (x : Vec F S1024x256 .f32) (w : Vec F S2048x256 .bf16) (b : Vec F S1x2048 .f32) (s : Vec F S1024x2048 .f32) :
    accLast c i a3 h3 a4 h4 a5 h5 a6 h6 a7 h7 hc0 hc1 x w b s = k1_pay2 x s w := by
  unfold accLast
  rw [View.read_writes_eq_canon _ _ _ (acover_last c i a3 h3 a4 h4 a5 h5 a6 h6 a7 h7 hc0 hc1 x w b s)]
  unfold runLast
  dsimp only
  sl_unfold_words
  rw [View.canon_unit_zero zoff]
  simp only [View.readAt_eq_ld, h3.read_unread, h4.read_unread, h5.read_unread, h7.read_unread,
    View.readCov_unit_zero (S := S1024x2048) _ zoff,
    View.ld_unit_zero (S := S1024x256) zoff, View.ld_unit_zero (S := S2048x256) zoff, View.ld_unit_zero (S := S1x2048) zoff,
    View.ld_unit_zero (S := S1024x2048) zoff]

/-- A first coordinate: the update of the zero fill (the reset is read back by the update's load). -/
theorem accFirst_eq (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : isFirst i) (hc1 : ¬isLast i)
    (x : Vec F S1024x256 .f32) (w : Vec F S2048x256 .bf16) (b : Vec F S1x2048 .f32) :
    accFirst c i a3 h3 a4 h4 a5 h5 a6 h6 a7 h7 hc0 hc1 x w b = k1_pay2 x (k1_pay1 (F := F)) w := by
  unfold accFirst
  rw [View.read_writes_eq_canon _ _ _ (acover_first c i a3 h3 a4 h4 a5 h5 a6 h6 a7 h7 hc0 hc1 x w b)]
  unfold runFirst
  dsimp only
  sl_unfold_words
  rw [View.canon_cons_unit_zero (S := S1024x2048) zoff]
  simp only [View.readAt_eq_ld, h3.read_unread, h4.read_unread, h5.read_unread, h7.read_unread,
    View.readCov_unit_zero (S := S1024x2048) _ zoff,
    View.ld_unit_zero (S := S1024x256) zoff, View.ld_unit_zero (S := S2048x256) zoff, View.ld_unit_zero (S := S1x2048) zoff,
    View.ld_unit_zero (S := S1024x2048) zoff]

/-- A last coordinate's output block: the emit of the updated accumulator and the bias row. -/
theorem outLast_eq (c : Dev nD) (i : grid1.Coords) (a3 : Memref sig .tc .vmem S1024x256 .f32) (h3 : a3.IsWhole) (a4 : Memref sig .tc .vmem S2048x256 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬isFirst i) (hc1 : isLast i)
    (x : Vec F S1024x256 .f32) (w : Vec F S2048x256 .bf16) (b : Vec F S1x2048 .f32) (s : Vec F S1024x2048 .f32) :
    outLast c i a3 h3 a4 h4 a5 h5 a6 h6 a7 h7 hc0 hc1 x w b s = k1_pay3 (k1_pay2 x s w) b := by
  unfold outLast
  rw [View.read_writes_eq_canon _ _ _ (ocover_last c i a3 h3 a4 h4 a5 h5 a6 h6 a7 h7 hc0 hc1 x w b s)]
  unfold runLast
  dsimp only
  sl_unfold_words
  rw [View.canon_unit_zero zoff]
  simp only [View.readAt_eq_ld, h3.read_unread, h4.read_unread, h5.read_unread, h7.read_unread,
    View.readCov_unit_zero (S := S1024x2048) _ zoff,
    View.ld_unit_zero (S := S1024x256) zoff, View.ld_unit_zero (S := S2048x256) zoff, View.ld_unit_zero (S := S1x2048) zoff,
    View.ld_unit_zero (S := S1024x2048) zoff]

end Cert.KernelIdeal.Frame

end
-- ==== Proof.EntryValues.lean ====
/-
  The body's stored values of region 1, read at one entry, over the extended reals.

  At the ideal instance a change of float format is the identity and a matrix product into a zero accumulator is the plain
  sum of products along the contracted axis.  So, entry (p, q) of a 1024 × 2048 block:
  the zero fill is 0; the update of `s` by the blocks `x` (1024 × 256) and `w` (2048 × 256) is
  `s (p, q) + ∑ k < 256, x (p, k) * w (q, k)`; the emit of `a` and the bias row `b` (1 × 2048) is `a (p, q) + b (0, q)`.
-/
import proofs.«144853_j39711267619209_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Entry

open Cert.KernelIdeal Cert.KernelIdeal.Gen
open Idealize.ShloMosaic Idealize.ShloMosaic.TcCoe Idealize.SL.Sem
open Idealize.ShloMosaic.ValueIdx

/-- The zero fill, at any entry. -/
theorem fill_apply (j : S1024x2048.Idx) : k1_pay1 (F := Ideal) j = 0 := by
  unfold k1_pay1
  rw [shapeCast_self]
  show Ideal.ofBits .f32 0x00000000#32 = 0
  exact Ideal.ofBits_zero_f32

/-! ### The block product's index maps, axis by axis -/

theorem lhs_ax0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_ax1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_ax0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_ax1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- Row `p` of the left block, column `k`; row `q` of the right block, column `k`. -/
abbrev lrow (i : S1024x2048.Idx) (k : Fin 256) : S1024x256.Idx := fun a => match a with
  | ⟨0, _⟩ => ⟨(i 0).val, (i 0).isLt⟩
  | ⟨1, _⟩ => ⟨k.val, k.isLt⟩
abbrev rrow (i : S1024x2048.Idx) (k : Fin 256) : S2048x256.Idx := fun a => match a with
  | ⟨0, _⟩ => ⟨(i 1).val, (i 1).isLt⟩
  | ⟨1, _⟩ => ⟨k.val, k.isLt⟩

/-- The product of the two blocks into a zero accumulator, at an entry: the sum over the 256 contracted columns. -/
theorem blockprod_apply (l : FVec Ideal S1024x256 .bf16) (r : FVec Ideal S2048x256 .bf16) (i : S1024x2048.Idx) :
    matmul dot_S1024x256_S2048x256_S1024x2048_1_1_0_0_n_n none l r (constant S1024x2048 .f32 0x00000000#32) i
      = ∑ k : Fin 256, l (lrow i k) * r (rrow i k) := by
  show FloatOps.matmul dot_S1024x256_S2048x256_S1024x2048_1_1_0_0_n_n none l r (constant S1024x2048 .f32 0x00000000#32) i = _
  rw [Ideal.matmul_constant_zero_apply, ← Equiv.sum_comp (ValueIdx.contrEquiv1 dot_S1024x256_S2048x256_S1024x2048_1_1_0_0_n_n 256 rfl rfl).symm]
  refine Finset.sum_congr rfl fun k _ => ?_
  have hk := ValueIdx.contrEquiv1_symm_val dot_S1024x256_S2048x256_S1024x2048_1_1_0_0_n_n 256 rfl rfl k
  have el : dot_S1024x256_S2048x256_S1024x2048_1_1_0_0_n_n.lhsIdx i ((ValueIdx.contrEquiv1 dot_S1024x256_S2048x256_S1024x2048_1_1_0_0_n_n 256 rfl rfl).symm k) = lrow i k := funext fun a => Fin.ext (by
    match a with
    | ⟨0, _⟩ => exact lhs_ax0 _ _
    | ⟨1, _⟩ => exact (lhs_ax1 _ _).trans hk)
  have er : dot_S1024x256_S2048x256_S1024x2048_1_1_0_0_n_n.rhsIdx i ((ValueIdx.contrEquiv1 dot_S1024x256_S2048x256_S1024x2048_1_1_0_0_n_n 256 rfl rfl).symm k) = rrow i k := funext fun a => Fin.ext (by
    match a with
    | ⟨0, _⟩ => exact rhs_ax0 _ _
    | ⟨1, _⟩ => exact (rhs_ax1 _ _).trans hk)
  rw [el, er]

/-- The update at an entry: what the accumulator held there plus the block product there. -/
theorem update_apply (x : Vec Ideal S1024x256 .f32) (s : Vec Ideal S1024x2048 .f32) (w : Vec Ideal S2048x256 .bf16) (i : S1024x2048.Idx) :
    k1_pay2 (F := Ideal) x s w i = s i + ∑ k : Fin 256, x (lrow i k) * w (rrow i k) := by
  unfold k1_pay2
  rw [shapeCast_self, shapeCast_self]
  show s i + matmul (F := Ideal) dot_S1024x256_S2048x256_S1024x2048_1_1_0_0_n_n none (truncf (F := Ideal) .bf16 x bitsLt_bf16_f32) w (constant (F := Ideal) S1024x2048 .f32 0x00000000#32) i = _
  rw [blockprod_apply]
  rfl

/-- The bias row's entry under column `q`. -/
abbrev brow (i : S1024x2048.Idx) : S1x2048.Idx := fun a => match a with
  | ⟨0, _⟩ => ⟨0, Nat.one_pos⟩
  | ⟨1, _⟩ => ⟨(i 1).val, (i 1).isLt⟩

/-- The emit at an entry: the accumulator there plus the bias of its column. -/
theorem emit_apply (a : Vec Ideal S1024x2048 .f32) (b : Vec Ideal S1x2048 .f32) (i : S1024x2048.Idx) :
    k1_pay3 (F := Ideal) a b i = a i + b (brow i) := by
  unfold k1_pay3
  rw [shapeCast_self]
  show a i + broadcastTo S1024x2048 b broadcasts_S1x2048_S1024x2048 i = _
  rw [broadcastTo_apply b broadcasts_S1x2048_S1024x2048 i (brow i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])]

end Cert.KernelIdeal.Entry

end
-- ==== Proof.DenseSpec.lean ====
/-
  The dense layer, entry by entry, over the extended reals.

  For activations `X` (8192 × 4096), a weight array `W` (16384 × 4096) and a bias row `B` (1 × 16384) the layer's result at
  row `r`, column `s` is `(∑ k < 4096, X (r, k) * W (s, k)) + B (0, s)`.  The arrays are read through total readers on the
  naturals (zero outside the array), so that a partial sum over the first `n` terms of the contraction is a sum over
  `Finset.range n`: the blocked kernel's accumulator is such a partial sum, and consecutive stretches join by
  `Finset.sum_range_add` — only associativity and commutativity of addition on the extended reals are used, so no
  finiteness is needed anywhere.
-/
import Idealize.ShloMosaic.PureOps.Ideal
import Idealize.ShloMosaic.Lib.ValueIdx
import Mathlib.Algebra.BigOperators.Fin

noncomputable section

namespace Cert.Dense

open Idealize.ShloMosaic Idealize.ShloMosaic.ValueIdx

abbrev SX : Shape := ⟨2, ![8192, 4096]⟩
abbrev SW : Shape := ⟨2, ![16384, 4096]⟩
abbrev SB : Shape := ⟨2, ![1, 16384]⟩
abbrev SO : Shape := ⟨2, ![8192, 16384]⟩

/-- The activations at row `r`, column `k` (zero outside the array). -/
def xAt (X : SX.Idx → EReal) (r k : ℕ) : EReal :=
  if h : r < 8192 ∧ k < 4096 then X (ix2 ⟨r, h.1⟩ ⟨k, h.2⟩) else 0
/-- The weights at row `s`, column `k`. -/
def wAt (W : SW.Idx → EReal) (s k : ℕ) : EReal :=
  if h : s < 16384 ∧ k < 4096 then W (ix2 ⟨s, h.1⟩ ⟨k, h.2⟩) else 0
/-- The bias of column `s`. -/
def bAt (B : SB.Idx → EReal) (s : ℕ) : EReal :=
  if h : s < 16384 then B (ix2 ⟨0, Nat.one_pos⟩ ⟨s, h⟩) else 0

/-- THE LAYER: the full contraction plus the column's bias. -/
def dense (X : SX.Idx → EReal) (W : SW.Idx → EReal) (B : SB.Idx → EReal) : SO.Idx → EReal :=
  fun i => (∑ k ∈ Finset.range 4096, xAt X (i 0).val k * wAt W (i 1).val k) + bAt B (i 1).val

/-- The same with the contraction indexed by `Fin 4096` and the arrays read at their own indices. -/
theorem dense_apply (X : SX.Idx → EReal) (W : SW.Idx → EReal) (B : SB.Idx → EReal) (i : SO.Idx) :
    dense X W B i
      = (∑ k : Fin 4096, X (ix2 ⟨(i 0).val, idx2_lt0 i⟩ k) * W (ix2 ⟨(i 1).val, idx2_lt1 i⟩ k))
        + B (ix2 ⟨0, Nat.one_pos⟩ ⟨(i 1).val, idx2_lt1 i⟩) := by
  unfold dense
  rw [Finset.sum_range]
  congr 1
  · refine Finset.sum_congr rfl fun k _ => ?_
    unfold xAt wAt
    rw [dif_pos ⟨idx2_lt0 i, k.isLt⟩, dif_pos ⟨idx2_lt1 i, k.isLt⟩]
  · unfold bAt
    rw [dif_pos (idx2_lt1 i)]

end Cert.Dense

end
-- ==== Proof.MatmulValue.lean ====
/-
  Region 1's result as the dense layer of its three input arrays, over the extended reals.

  A grid point `t` has coordinates (t / 128, t / 16 % 8, t % 16): row block, column block, and the block `kk` of 256 along
  the contraction.  Its block of the activations starts at row 1024 (t / 128), column 256 kk; its block of the weights at
  row 2048 (t / 16 % 8), column 256 kk; its bias block at column 2048 (t / 16 % 8).  So the point's block product, at
  entry (p, q), is the stretch [256 kk, 256 kk + 256) of the contraction for row 1024 (t / 128) + p and column
  2048 (t / 16 % 8) + q, and by induction on the point the accumulator after point `t` is the partial sum over the first
  256 (kk + 1) terms.  At kk = 15 that is the full contraction; the emitted block adds the column's bias; the 8 × 8
  emitted blocks tile the result, which is therefore the layer of the arrays as the region finds them.
-/
import proofs.«144853_j39711267619209_1_alg».proof.Proof.MatmulPieces
import proofs.«144853_j39711267619209_1_alg».proof.Proof.EntryValues
import proofs.«144853_j39711267619209_1_alg».proof.Proof.DenseSpec
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Entry Cert.Dense Idealize.ShloMosaic.ValueIdx

variable (V : (c : Dev nD) → (b : Ref sig .tc) → Buf (Elt Ideal) ((c : Thread nD τ).loc b))

/-- The three arrays region 1 reads, as it finds them. -/
abbrev xarr (c : Dev nD) : Vec Ideal S8192x4096 .f32 := V c main_arg0
abbrev warr (c : Dev nD) : Vec Ideal S16384x4096 .bf16 := V c main_v0
abbrev barr (c : Dev nD) : Vec Ideal S1x16384 .f32 := V c main_v5
/-- A point's three input blocks. -/
abbrev xb (c : Dev nD) (t : Fin cfg1.N) : Vec Ideal S1024x256 .f32 := mblk V c 0 t
abbrev wb (c : Dev nD) (t : Fin cfg1.N) : Vec Ideal S2048x256 .bf16 := mblk V c 1 t
abbrev bb (c : Dev nD) (t : Fin cfg1.N) : Vec Ideal S1x2048 .f32 := mblk V c 2 t

/-- The four index maps in closed form over the grid. -/
theorem midx_facts : ∀ t : Fin cfg1.N,
    win1_0.index t (0 : Fin 2) = t.val / 128 ∧ win1_0.index t (1 : Fin 2) = t.val % 16
    ∧ win1_1.index t (0 : Fin 2) = t.val / 16 % 8 ∧ win1_1.index t (1 : Fin 2) = t.val % 16
    ∧ win1_2.index t (0 : Fin 2) = 0 ∧ win1_2.index t (1 : Fin 2) = t.val / 16 % 8
    ∧ win1_3.index t (0 : Fin 2) = t.val / 128 ∧ win1_3.index t (1 : Fin 2) = t.val / 16 % 8 :=
  (by decide +kernel : ∀ t : Fin grid1.N, _)

theorem point_lt (t : Fin cfg1.N) : t.val < 1024 := lt_of_lt_of_eq t.isLt N_1

/-! ## The blocks, read through the arrays -/

theorem xblk_at (c : Dev nD) (t : Fin cfg1.N) (y : S1024x256.Idx) :
    xb V c t y = xAt (xarr V c) (1024 * (t.val / 128) + (y 0).val) (256 * (t.val % 16) + (y 1).val) := by
  obtain ⟨e0, e1, -, -, -, -, -, -⟩ := midx_facts t
  have ht := point_lt t
  have h0 : (y 0).val < 1024 := idx2_lt0 y
  have h1 : (y 1).val < 256 := idx2_lt1 y
  unfold xAt
  rw [dif_pos ⟨by omega, by omega⟩]
  show V c main_arg0 (((cfg1.win 0).blk t).view.emb y) = V c main_arg0 _
  refine congrArg (V c main_arg0) (funext fun a => Fin.ext ?_)
  match a with
  | ⟨0, _⟩ => show win1_0.index t (0 : Fin 2) * 1024 + 1 * (y 0).val = 1024 * (t.val / 128) + (y 0).val; rw [e0]; omega
  | ⟨1, _⟩ => show win1_0.index t (1 : Fin 2) * 256 + 1 * (y 1).val = 256 * (t.val % 16) + (y 1).val; rw [e1]; omega

theorem wblk_at (c : Dev nD) (t : Fin cfg1.N) (y : S2048x256.Idx) :
    wb V c t y = wAt (warr V c) (2048 * (t.val / 16 % 8) + (y 0).val) (256 * (t.val % 16) + (y 1).val) := by
  obtain ⟨-, -, e2, e3, -, -, -, -⟩ := midx_facts t
  have ht := point_lt t
  have h0 : (y 0).val < 2048 := idx2_lt0 y
  have h1 : (y 1).val < 256 := idx2_lt1 y
  unfold wAt
  rw [dif_pos ⟨by omega, by omega⟩]
  show V c main_v0 (((cfg1.win 1).blk t).view.emb y) = V c main_v0 _
  refine congrArg (V c main_v0) (funext fun a => Fin.ext ?_)
  match a with
  | ⟨0, _⟩ => show win1_1.index t (0 : Fin 2) * 2048 + 1 * (y 0).val = 2048 * (t.val / 16 % 8) + (y 0).val; rw [e2]; omega
  | ⟨1, _⟩ => show win1_1.index t (1 : Fin 2) * 256 + 1 * (y 1).val = 256 * (t.val % 16) + (y 1).val; rw [e3]; omega

theorem bblk_at (c : Dev nD) (t : Fin cfg1.N) (y : S1x2048.Idx) :
    bb V c t y = bAt (barr V c) (2048 * (t.val / 16 % 8) + (y 1).val) := by
  obtain ⟨-, -, -, -, e4, e5, -, -⟩ := midx_facts t
  have ht := point_lt t
  have h0 : (y 0).val < 1 := idx2_lt0 y
  have h1 : (y 1).val < 2048 := idx2_lt1 y
  unfold bAt
  rw [dif_pos (by omega)]
  show V c main_v5 (((cfg1.win 2).blk t).view.emb y) = V c main_v5 _
  refine congrArg (V c main_v5) (funext fun a => Fin.ext ?_)
  match a with
  | ⟨0, _⟩ => show win1_2.index t (0 : Fin 2) * 1 + 1 * (y 0).val = 0; rw [e4]; omega
  | ⟨1, _⟩ => show win1_2.index t (1 : Fin 2) * 2048 + 1 * (y 1).val = 2048 * (t.val / 16 % 8) + (y 1).val; rw [e5]; omega

/-- A point's block product at an entry is a stretch of 256 terms of that entry's contraction. -/
theorem blocksum (c : Dev nD) (t : Fin cfg1.N) (i : S1024x2048.Idx) :
    (∑ k : Fin 256, xb V c t (lrow i k) * wb V c t (rrow i k))
      = ∑ k ∈ Finset.range 256, xAt (xarr V c) (1024 * (t.val / 128) + (i 0).val) (256 * (t.val % 16) + k)
          * wAt (warr V c) (2048 * (t.val / 16 % 8) + (i 1).val) (256 * (t.val % 16) + k) := by
  rw [Finset.sum_range]
  refine Finset.sum_congr rfl fun k _ => ?_
  rw [xblk_at V c t, wblk_at V c t]

/-! ## The accumulator is a partial sum -/

theorem acc_inv (c : Dev nD) : ∀ (n : ℕ) (hn : n < cfg1.N) (i : S1024x2048.Idx),
    accAt V c n hn i = ∑ k ∈ Finset.range (256 * (n % 16 + 1)),
      xAt (xarr V c) (1024 * (n / 128) + (i 0).val) k * wAt (warr V c) (2048 * (n / 16 % 8) + (i 1).val) k := by
  intro n
  induction n using Nat.strong_induction_on with
  | _ n ih =>
    intro hn i
    have hblock : (∑ k : Fin 256, xb V c ⟨n, hn⟩ (lrow i k) * wb V c ⟨n, hn⟩ (rrow i k))
        = ∑ k ∈ Finset.range 256, xAt (xarr V c) (1024 * (n / 128) + (i 0).val) (256 * (n % 16) + k)
            * wAt (warr V c) (2048 * (n / 16 % 8) + (i 1).val) (256 * (n % 16) + k) := blocksum V c ⟨n, hn⟩ i
    by_cases h0 : n % 16 = 0
    · have hfirst : accAt V c n hn i
          = k1_pay1 (F := Ideal) i + ∑ k : Fin 256, xb V c ⟨n, hn⟩ (lrow i k) * wb V c ⟨n, hn⟩ (rrow i k) :=
        (congrFun ((accAt_first V c ⟨n, hn⟩ h0).trans (accFirst_eq c _ _ _ _ _ _ _ _ _ _ _ _ _ _ _ _)) i).trans
          (update_apply _ _ _ i)
      rw [hfirst, fill_apply, zero_add, hblock, h0]
      simp only [Nat.mul_zero, Nat.zero_add, Nat.mul_one]
    · have hpos : n ≠ 0 := fun e => h0 (by rw [e])
      have ihp := ih (n - 1) (by omega) (prev_lt ⟨n, hn⟩) i
      have e1 : (n - 1) % 16 + 1 = n % 16 := by omega
      have e2 : (n - 1) / 128 = n / 128 := by omega
      have e3 : (n - 1) / 16 % 8 = n / 16 % 8 := by omega
      rw [e1, e2, e3] at ihp
      have hstep : accAt V c n hn i
          = accAt V c (n - 1) (prev_lt ⟨n, hn⟩) i + ∑ k : Fin 256, xb V c ⟨n, hn⟩ (lrow i k) * wb V c ⟨n, hn⟩ (rrow i k) := by
        by_cases h1 : n % 16 = 15
        · exact (congrFun ((accAt_last V c ⟨n, hn⟩ h0 h1).trans (accLast_eq c _ _ _ _ _ _ _ _ _ _ _ _ _ _ _ _ _)) i).trans
            (update_apply _ _ _ i)
        · exact (congrFun ((accAt_middle V c ⟨n, hn⟩ h0 h1).trans (accMiddle_eq c _ _ _ _ _ _ _ _ _ _ _ _ _ _ _ _ _)) i).trans
            (update_apply _ _ _ i)
      rw [hstep, ihp, hblock, show 256 * (n % 16 + 1) = 256 * (n % 16) + 256 by ring, Finset.sum_range_add]

/-! ## What a last coordinate writes back -/

/-- At a point that writes back, the emitted block is block `t` of the layer of the three arrays. -/
theorem mflushed (c : Dev nD) (t : Fin cfg1.N) (hf : (cfg1.win 3).flush t = true) :
    (mdat V c).flushed 3 t = ((cfg1.win 3).blk t).view.read (Elt Ideal) (dense (xarr V c) (warr V c) (barr V c)) := by
  have h1 : t.val % 16 = 15 := (flush1_3 t).mp hf
  have h0 : ¬t.val % 16 = 0 := by omega
  have ht := point_lt t
  obtain ⟨-, -, -, -, -, -, e6, e7⟩ := midx_facts t
  show (cfg1.win 3).cut (grid1.coords t) ((mdat V c).after 3 t) = _
  rw [mafter_3, outAt_last V c t h0 h1, outLast_eq]
  funext y
  have hy0 : (y 0).val < 1024 := idx2_lt0 y
  have hy1 : (y 1).val < 2048 := idx2_lt1 y
  have hl : k1_pay3 (F := Ideal) (k1_pay2 (F := Ideal) (xb V c t) (accAt V c (t.val - 1) (prev_lt t)) (wb V c t)) (bb V c t) y
      = (accAt V c (t.val - 1) (prev_lt t) y + ∑ k : Fin 256, xb V c t (lrow y k) * wb V c t (rrow y k)) + bb V c t (brow y) :=
    (emit_apply _ _ y).trans (congrArg (· + bb V c t (brow y)) (update_apply _ _ _ y))
  have hacc := acc_inv V c (t.val - 1) (prev_lt t) y
  have a1 : (t.val - 1) % 16 + 1 = t.val % 16 := by omega
  have a2 : (t.val - 1) / 128 = t.val / 128 := by omega
  have a3 : (t.val - 1) / 16 % 8 = t.val / 16 % 8 := by omega
  rw [a1, a2, a3] at hacc
  have hr0 : ((((cfg1.win 3).blk t).view.emb y) 0).val = 1024 * (t.val / 128) + (y 0).val := by
    show win1_3.index t (0 : Fin 2) * 1024 + 1 * (y 0).val = _; rw [e6]; omega
  have hr1 : ((((cfg1.win 3).blk t).view.emb y) 1).val = 2048 * (t.val / 16 % 8) + (y 1).val := by
    show win1_3.index t (1 : Fin 2) * 2048 + 1 * (y 1).val = _; rw [e7]; omega
  show k1_pay3 (F := Ideal) (k1_pay2 (F := Ideal) (xb V c t) (accAt V c (t.val - 1) (prev_lt t)) (wb V c t)) (bb V c t) y
    = dense (xarr V c) (warr V c) (barr V c) (((cfg1.win 3).blk t).view.emb y)
  rw [hl, hacc, blocksum V c t y, ← Finset.sum_range_add, bblk_at V c t]
  unfold dense
  rw [hr0, hr1, h1]

/-! ## The emitted blocks tile the result -/

theorem mmem_blk (t : Fin cfg1.N) (i : S8192x16384.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v6).slice (win1_3.rect t)).set ↔ _
  rw [View.set_slice_whole, Rect.mem_set_unit]
  exact Iff.rfl

/-- Row `r`, column `s` is written back by the last point of row block `r / 1024`, column block `s / 2048`. -/
theorem mcover_all (i : S8192x16384.Idx) :
    ∃ t : Fin cfg1.N, (cfg1.win 3).flush t = true ∧ i ∈ ((cfg1.win 3).blk t).view.set := by
  have hi0 : (i 0).val < 8192 := idx2_lt0 i
  have hi1 : (i 1).val < 16384 := idx2_lt1 i
  have hN : cfg1.N = 1024 := N_1
  let t : Fin cfg1.N := ⟨((i 0).val / 1024 * 8 + (i 1).val / 2048) * 16 + 15, by omega⟩
  have htv : t.val = ((i 0).val / 1024 * 8 + (i 1).val / 2048) * 16 + 15 := rfl
  obtain ⟨-, -, -, -, -, -, e6, e7⟩ := midx_facts t
  refine ⟨t, (flush1_3 t).mpr (by omega), ?_⟩
  rw [mmem_blk]
  intro a
  match a with
  | ⟨0, _⟩ => show win1_3.index t (0 : Fin 2) * 1024 ≤ (i 0).val ∧ (i 0).val < win1_3.index t (0 : Fin 2) * 1024 + 1024; rw [e6]; omega
  | ⟨1, _⟩ => show win1_3.index t (1 : Fin 2) * 2048 ≤ (i 1).val ∧ (i 1).val < win1_3.index t (1 : Fin 2) * 2048 + 2048; rw [e7]; omega

/-- THE ARRAY after region 1: the dense layer of the three arrays as the region finds them. -/
theorem mfinal (c : Dev nD) :
    (mdat V c).arrAt 3 cfg1.N = dense (xarr V c) (warr V c) (barr V c) :=
  (mdat V c).arrAt_eq_of_cover 3 _ (fun t hf => mflushed V c t hf) mcover_all

end Cert.KernelIdeal.Frame

end
-- ==== Proof.SampleSpec.lean ====
/-
  The two sampled parameters of the layer, entry by entry, over the extended reals.

  A weight entry is `mean + log1p (exp rho) * noise` of the three weight arrays at that entry; the bias of column `s` is the
  same expression of the three bias vectors at `s`, laid out as a 1 × 16384 row.  Both the kernel program (a kernel region
  for the weights, host operations for the bias) and the reference compute exactly these, so the layer of the launch
  arrays is `dense x (wgt …) (biasRow …)` on both sides.
-/
import proofs.«144853_j39711267619209_1_alg».proof.Proof.DenseSpec

noncomputable section

namespace Cert.Dense

open Idealize.ShloMosaic Idealize.ShloMosaic.ValueIdx

abbrev SV : Shape := ⟨1, ![16384]⟩

/-- The weight sample. -/
def wgt (mu rho eps : SW.Idx → EReal) : SW.Idx → EReal :=
  fun j => mu j + Ideal.log1p (Ideal.exp (rho j)) * eps j

/-- The bias sample at column `s`. -/
def biasAt (bm br be : SV.Idx → EReal) (s : Fin 16384) : EReal :=
  bm (ix1 s) + Ideal.log1p (Ideal.exp (br (ix1 s))) * be (ix1 s)

/-- The bias sample as one row. -/
def biasRow (bm br be : SV.Idx → EReal) : SB.Idx → EReal :=
  fun j => biasAt bm br be ⟨(j 1).val, idx2_lt1 j⟩

end Cert.Dense

end
-- ==== Proof.KernelValue.lean ====
/-
  The kernel program's result as the dense layer of the launch arrays, over the extended reals.

  When region 1 is entered: the activations are the launch array (nothing before writes it); the weight array is what
  region 0 left, the weight sample of the three launch weight arrays; the bias row is what the host stretch left, the
  bias sample `bias_mean + log1p (exp bias_rho) * bias_noise` laid out as one row.  With region 1's result being the
  dense layer of those three arrays, the program's result is the dense layer of the launch arrays' samples.
-/
import proofs.«144853_j39711267619209_1_alg».proof.Proof.KernelRun
import proofs.«144853_j39711267619209_1_alg».proof.Proof.WeightValue
import proofs.«144853_j39711267619209_1_alg».proof.Proof.MatmulValue
import proofs.«144853_j39711267619209_1_alg».proof.Proof.SampleSpec
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Dense Idealize.ShloMosaic.StableHlo Idealize.ShloMosaic.ValueIdx

variable (m : (ℓ : Loc nD τ sig) → Buf (Elt Ideal) ℓ) (ρ : Dev nD → PrngReg)

/-- The bias sample, a vector of 16384 entries. -/
abbrev biasVec (c : Dev nD) : FVec Ideal S16384 .f32 :=
  addf (F := Ideal) (φ := .f32) (m ((c : Thread nD τ).loc main_arg4))
    (mulf (F := Ideal) (φ := .f32) (Host.log1p (F := Ideal) (φ := .f32) (Host.exp (F := Ideal) (φ := .f32) (m ((c : Thread nD τ).loc main_arg5))))
      (m ((c : Thread nD τ).loc main_arg6)))

/-- The activations reach region 1 as launched. -/
theorem x_entry (c : Dev nD) : xarr (B2 m ρ) c = m ((c : Thread nD τ).loc main_arg0) :=
  calc E2 m ρ c (Proc.devRef .tc main_arg0)
    _ = E1 m ρ c (Proc.devRef .tc main_arg0) := StableHlo.after_of_writes_sub hostOps1 _ hostOps1_writes (r := main_arg0) (by decide)
    _ = E0 m ρ c (Proc.devRef .tc main_arg0) := E1_of_ne m ρ c main_arg0 (by decide)
    _ = m ((c : Thread nD τ).loc main_arg0) := rfl

/-- The weight array reaches region 1 as region 0 left it: the weight sample of the launch arrays. -/
theorem w_entry (c : Dev nD) :
    warr (B2 m ρ) c = wsample (m ((c : Thread nD τ).loc main_arg1)) (m ((c : Thread nD τ).loc main_arg2)) (m ((c : Thread nD τ).loc main_arg3)) :=
  calc E2 m ρ c (Proc.devRef .tc main_v0)
    _ = E1 m ρ c (Proc.devRef .tc main_v0) := StableHlo.after_of_writes_sub hostOps1 _ hostOps1_writes (r := main_v0) (by decide)
    _ = (wdat (B0 m ρ) c).arrAt 3 cfg0.N := E1_arr m ρ c 3
    _ = wsample (B0 m ρ c main_arg1) (B0 m ρ c main_arg2) (B0 m ρ c main_arg3) := wfinal (B0 m ρ) c
    _ = _ := rfl

/-- The bias row reaches region 1 as the host stretch left it: the bias sample as one row. -/
theorem b_entry (c : Dev nD) :
    barr (B2 m ρ) c = shapeCast S1x16384 (biasVec m c) shapeCasts_S16384_S1x16384 := by
  show StableHlo.after hostOps1 (E1 m ρ c) (Proc.devRef .tc main_v5) = _
  after_results
  rw [E1_of_ne m ρ c main_arg4 (by decide), E1_of_ne m ρ c main_arg5 (by decide), E1_of_ne m ρ c main_arg6 (by decide)]
  rfl

/-- Over the extended reals the narrowing is the identity: the kernel's weight sample is `wgt`. -/
theorem wsample_ideal (mu rho eps : Vec Ideal S16384x4096 .f32) : wsample (F := Ideal) mu rho eps = wgt mu rho eps :=
  funext fun _ => rfl

/-- The bias vector laid out as one row: entry (0, s) of the row is entry `s` of the vector. -/
theorem bias_row (c : Dev nD) :
    shapeCast S1x16384 (biasVec m c) shapeCasts_S16384_S1x16384
      = biasRow (m ((c : Thread nD τ).loc main_arg4)) (m ((c : Thread nD τ).loc main_arg5)) (m ((c : Thread nD τ).loc main_arg6)) := by
  funext j
  have h0 : (j 0).val < 1 := idx2_lt0 j
  have hk : (S16384.rowMajor (ix1 ⟨(j 1).val, idx2_lt1 j⟩)).val = (S1x16384.rowMajor j).val := by
    rw [Shape.rowMajor_val_one, Shape.rowMajor_val_two]
    show (j 1).val = (j 0).val * 16384 + (j 1).val
    omega
  rw [shapeCast_apply (biasVec m c) shapeCasts_S16384_S1x16384 j (ix1 ⟨(j 1).val, idx2_lt1 j⟩) hk]
  rfl

/-- THE RESULT: region 1's output array after its last write-back is the dense layer of the launch activations, the
    weight sample and the bias sample's row. -/
theorem kernel_value (c : Dev nD) :
    (mdat (B2 m ρ) c).arrAt 3 cfg1.N
      = dense (m ((c : Thread nD τ).loc main_arg0))
          (wgt (m ((c : Thread nD τ).loc main_arg1)) (m ((c : Thread nD τ).loc main_arg2)) (m ((c : Thread nD τ).loc main_arg3)))
          (biasRow (m ((c : Thread nD τ).loc main_arg4)) (m ((c : Thread nD τ).loc main_arg5)) (m ((c : Thread nD τ).loc main_arg6))) := by
  rw [mfinal (B2 m ρ) c, x_entry m ρ c, w_entry m ρ c, b_entry m ρ c, wsample_ideal, bias_row m c]

end Cert.KernelIdeal.Frame

end
-- ==== Proof.RefValue.lean ====
/-
  The reference's result is the dense layer of the launch arrays' samples.

  The reference computes the weight sample and the bias sample by host operations, one `dot_general` contracting the
  4096-long axis of the activations with that of the weights, and adds the bias broadcast along the rows.  Read index by
  index over the extended reals that is: at row `r`, column `s`, the sum over `k` of activation (r, k) times weight
  sample (s, k), plus bias sample `s` — the same function the kernel program computes.
-/
import proofs.«144853_j39711267619209_1_alg».proof.Proof.Gen.ReferenceIdeal.Read
import proofs.«144853_j39711267619209_1_alg».proof.Proof.SampleSpec

noncomputable section

namespace Cert.ReferenceIdeal.RefValue

open Cert.ReferenceIdeal Cert.ReferenceIdeal.Read Cert.Dense
open Idealize.ShloMosaic Idealize.ShloMosaic.TcCoe Idealize.SL.Sem Idealize.ShloMosaic.ValueIdx

/-- The reference's last stage is `dense` of the activations, the weight sample and the bias row. -/
theorem result_is_dense (x0 : (⟨S8192x4096, .f32⟩ : BufTy).Contents (Elt Ideal))
    (x1 x2 x3 : (⟨S16384x4096, .f32⟩ : BufTy).Contents (Elt Ideal)) (x4 x5 x6 : (⟨S16384, .f32⟩ : BufTy).Contents (Elt Ideal)) :
    val_main_v11 (F := Ideal) x0 x1 x2 x3 x4 x5 x6 = dense x0 (wgt x1 x2 x3) (biasRow x4 x5 x6) := by
  funext i
  have el : ∀ k : Fin 4096, lidx_main_v8 i k = ix2 ⟨(i 0).val, idx2_lt0 i⟩ k := fun k => funext fun a => by
    match a with
    | ⟨0, _⟩ => rfl
    | ⟨1, _⟩ => rfl
  have er : ∀ k : Fin 4096, ridx_main_v8 i k = ix2 ⟨(i 1).val, idx2_lt1 i⟩ k := fun k => funext fun a => by
    match a with
    | ⟨0, _⟩ => rfl
    | ⟨1, _⟩ => rfl
  have eb : idx_main_v9 (idx_main_v10 i) = ix1 ⟨(i 1).val, idx2_lt1 i⟩ := funext fun a => by
    match a with
    | ⟨0, _⟩ => rfl
  rw [dense_apply, val_main_v11_apply, val_main_v8_apply, val_main_v10_apply, val_main_v9_apply, eb]
  simp only [el, er]
  rfl

end Cert.ReferenceIdeal.RefValue

end
-- ==== Proof.lean ====
/-
  The certificate of the Bayesian linear layer kernel against its reference, over the extended reals.

  Both programs compute, at row `r` and column `s`,
      (∑ k < 4096, x (r, k) * (w_mean (s, k) + log1p (exp (w_rho (s, k))) * w_noise (s, k)))
        + (b_mean s + log1p (exp (b_rho s)) * b_noise s).
  The kernel program samples the weights in a first kernel region, samples the bias on the host, and forms the product in a
  second region that walks the contraction in 16 blocks of 256 with a running accumulator, adding the bias when it emits;
  the reference does one contraction of length 4096.  A sum over 16 consecutive stretches of 256 terms is the sum over
  all 4096 — associativity of addition on the extended reals, nothing more — and a change of float format is the identity
  there, so the two results agree entry by entry; the precondition is never needed.
  The three frames: each kernel program's run (the several-regions launch over its two regions, at the word-level instance
  and at the ideal one) leaves every argument array as launched; the reference's run is its generated run read back.
  The idealization rewrote nothing, so `preserves` is trivial.
-/
import proofs.«144853_j39711267619209_1_alg».proof.Defs
import proofs.«144853_j39711267619209_1_alg».proof.Proof.Gen.Kernel
import proofs.«144853_j39711267619209_1_alg».proof.Proof.Gen.KernelIdeal
import proofs.«144853_j39711267619209_1_alg».proof.Proof.Gen.ReferenceIdeal
import proofs.«144853_j39711267619209_1_alg».proof.Proof.Gen.Pre_finite_inputs
import proofs.«144853_j39711267619209_1_alg».proof.Proof.Gen.ReferenceIdeal.Run
import proofs.«144853_j39711267619209_1_alg».proof.Proof.Gen.ReferenceIdeal.Read
import proofs.«144853_j39711267619209_1_alg».proof.Proof.Bits.KernelRun
import proofs.«144853_j39711267619209_1_alg».proof.Proof.KernelValue
import proofs.«144853_j39711267619209_1_alg».proof.Proof.RefValue
import Idealize.ShloMosaic.Adequacy
import Idealize.ShloMosaic.Init

noncomputable section

namespace Cert.Proof

open Idealize.ShloMosaic Idealize.ShloMosaic.TcCoe Idealize.SL.Sem Cert.Dense

/-- The word-level kernel program runs to its end without a fault and leaves its arguments as launched. -/
theorem frame_kernel : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Frame.kernel_run (F := Bits) m ρ)

/-- So does the idealized kernel program. -/
theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Frame.kernel_run (F := Ideal) m ρ)

/-- And the reference: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the dense layer of the launch arrays' samples. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => dense (m ((c.tc : Thread Cert.KernelIdeal.nD Cert.KernelIdeal.τ).loc Cert.KernelIdeal.main_arg0))
      (wgt (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (biasRow (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))), ?_, ?_⟩
  · exact (θ_run Cert.KernelIdeal.defs _ _).mono
      (fun _ h c => ⟨(h c).1.trans (Cert.KernelIdeal.Frame.kernel_value m ρ c), (h c).2⟩)
      (Cert.KernelIdeal.Frame.kernel_run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.result_is_dense,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
